-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8448 : Shape := ⟨2, ![8192, 8448]⟩
abbrev S4x8448 : Shape := ⟨2, ![4, 8448]⟩
abbrev S8448x4 : Shape := ⟨2, ![8448, 4]⟩
abbrev S8448 : Shape := ⟨1, ![8448]⟩
abbrev S_ : Shape := ⟨0, ![]⟩

class Facts : Prop where
  bcast_S_S8192x8448 : S_.BroadcastsInDim S8192x8448 (![] : Fin 0 → Fin S8192x8448.rank)
  reducesTo_S8192x8448_S_d0_1 : S8192x8448.ReducesTo [0, 1] S_
  h_S_ : 0 < S_.numel
  bcast_S_S4x8448 : S_.BroadcastsInDim S4x8448 (![] : Fin 0 → Fin S4x8448.rank)
  reducesTo_S4x8448_S_d0_1 : S4x8448.ReducesTo [0, 1] S_
  bcast_S_S8448x4 : S_.BroadcastsInDim S8448x4 (![] : Fin 0 → Fin S8448x4.rank)
  reducesTo_S8448x4_S_d0_1 : S8448x4.ReducesTo [0, 1] S_
  bcast_S_S8448 : S_.BroadcastsInDim S8448 (![] : Fin 0 → Fin S8448.rank)
  reducesTo_S8448_S_d0 : S8448.ReducesTo [0] S_

variable [Facts]

def fn_part1 {F : FTy → Type} [FloatOps F] (main_v13 : IVec S_ 1) (main_v16 : IVec S8448 1) : IVec S_ 1 :=
  let main_c_5 : IVec S_ 1 := constantI S_ 1 1#1
  let main_v17 : IVec S_ 1 := (fun x v => Host.reduce IntOp.andi x v reducesTo_S8448_S_d0 h_S_) main_v16 main_c_5
  let main_v18 : IVec S_ 1 := andi main_v13 main_v17
  main_v18

def fn {F : FTy → Type} [FloatOps F] (main_arg0 : FVec F S8192x8448 .f32) (main_arg1 : FVec F S4x8448 .f32) (main_arg2 : FVec F S8448x4 .f32) (main_arg3 : FVec F S8448 .f32) : IVec S_ 1 :=
  let main_v0 : FVec F S8192x8448 .f32 := Host.absf main_arg0
  let main_cst : FVec F S_ .f32 := constant S_ .f32 0x7F800000#32
  let main_v1 : FVec F S8192x8448 .f32 := broadcastInDim S8192x8448 ![] bcast_S_S8192x8448 main_cst
  let main_v2 : IVec S8192x8448 1 := cmpf .olt main_v0 main_v1
  let main_c : IVec S_ 1 := constantI S_ 1 1#1
  let main_v3 : IVec S_ 1 := (fun x v => Host.reduce IntOp.andi x v reducesTo_S8192x8448_S_d0_1 h_S_) main_v2 main_c
  let main_v4 : FVec F S4x8448 .f32 := Host.absf main_arg1
  let main_cst_0 : FVec F S_ .f32 := constant S_ .f32 0x7F800000#32
  let main_v5 : FVec F S4x8448 .f32 := broadcastInDim S4x8448 ![] bcast_S_S4x8448 main_cst_0
  let main_v6 : IVec S4x8448 1 := cmpf .olt main_v4 main_v5
  let main_c_1 : IVec S_ 1 := constantI S_ 1 1#1
  let main_v7 : IVec S_ 1 := (fun x v => Host.reduce IntOp.andi x v reducesTo_S4x8448_S_d0_1 h_S_) main_v6 main_c_1
  let main_v8 : IVec S_ 1 := andi main_v3 main_v7
  let main_v9 : FVec F S8448x4 .f32 := Host.absf main_arg2
  let main_cst_2 : FVec F S_ .f32 := constant S_ .f32 0x7F800000#32
  let main_v10 : FVec F S8448x4 .f32 := broadcastInDim S8448x4 ![] bcast_S_S8448x4 main_cst_2
  let main_v11 : IVec S8448x4 1 := cmpf .olt main_v9 main_v10
  let main_c_3 : IVec S_ 1 := constantI S_ 1 1#1
  let main_v12 : IVec S_ 1 := (fun x v => Host.reduce IntOp.andi x v reducesTo_S8448x4_S_d0_1 h_S_) main_v11 main_c_3
  let main_v13 : IVec S_ 1 := andi main_v8 main_v12
  let main_v14 : FVec F S8448 .f32 := Host.absf main_arg3
  let main_cst_4 : FVec F S_ .f32 := constant S_ .f32 0x7F800000#32
  let main_v15 : FVec F S8448 .f32 := broadcastInDim S8448 ![] bcast_S_S8448 main_cst_4
  let main_v16 : IVec S8448 1 := cmpf .olt main_v14 main_v15
  fn_part1 (F := F) main_v13 main_v16
-- ==== Kernel.lean ====
abbrev S8192x8448 : Shape := ⟨2, ![8192, 8448]⟩
abbrev S4x8448 : Shape := ⟨2, ![4, 8448]⟩
abbrev S8448x4 : Shape := ⟨2, ![8448, 4]⟩
abbrev S8448 : Shape := ⟨1, ![8448]⟩
abbrev S8192x8192 : Shape := ⟨2, ![8192, 8192]⟩
abbrev S8192x128 : Shape := ⟨2, ![8192, 128]⟩
abbrev S128x8448 : Shape := ⟨2, ![128, 8448]⟩
abbrev S8x8448 : Shape := ⟨2, ![8, 8448]⟩
abbrev S128x8192 : Shape := ⟨2, ![128, 8192]⟩
abbrev S128x128 : Shape := ⟨2, ![128, 128]⟩
abbrev S132x8448 : Shape := ⟨2, ![132, 8448]⟩
abbrev S1x8448 : Shape := ⟨2, ![1, 8448]⟩

abbrev nBuf : Space → Nat
  | .hbm => 9
  | .vmem => 13
  | .smem => 0
  | _ => 0

abbrev bufTy : (tb : Table) → Fin (tcTables nBuf tb) → BufTy
  | .hbm, ⟨0, _⟩ => ⟨S8192x8448, .f32⟩
  | .hbm, ⟨1, _⟩ => ⟨S4x8448, .f32⟩
  | .hbm, ⟨2, _⟩ => ⟨S8448x4, .f32⟩
  | .hbm, ⟨3, _⟩ => ⟨S8448, .f32⟩
  | .hbm, ⟨4, _⟩ => ⟨S4x8448, .f32⟩
  | .hbm, ⟨5, _⟩ => ⟨S8192x8192, .f32⟩
  | .hbm, ⟨6, _⟩ => ⟨S8192x128, .f32⟩
  | .hbm, ⟨7, _⟩ => ⟨S8192x128, .f32⟩
  | .hbm, ⟨8, _⟩ => ⟨S4x8448, .f32⟩
  | .local _ .vmem, ⟨0, _⟩ => ⟨S128x8448, .f32⟩
  | .local _ .vmem, ⟨1, _⟩ => ⟨S128x8448, .f32⟩
  | .local _ .vmem, ⟨2, _⟩ => ⟨S8x8448, .f32⟩
  | .local _ .vmem, ⟨3, _⟩ => ⟨S8x8448, .f32⟩
  | .local _ .vmem, ⟨4, _⟩ => ⟨S4x8448, .f32⟩
  | .local _ .vmem, ⟨5, _⟩ => ⟨S4x8448, .f32⟩
  | .local _ .vmem, ⟨6, _⟩ => ⟨S8448, .f32⟩
  | .local _ .vmem, ⟨7, _⟩ => ⟨S128x8192, .f32⟩
  | .local _ .vmem, ⟨8, _⟩ => ⟨S128x8192, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | _, _ => ⟨S8192x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8448 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8448 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x8448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8448 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S8448x4_S4x8448_1_0 : S8448x4.Transposes [1, 0] S4x8448
  inb_S128x8448_S128x8448_0_0 : ∀ a, (![0, 0] : Fin 2 → Nat) a + S128x8448.size a ≤ S128x8448.size a
  h_S128x8448 : 0 < S128x8448.numel
  inb_S8x8448_S8x8448_0_0 : ∀ a, (![0, 0] : Fin 2 → Nat) a + S8x8448.size a ≤ S8x8448.size a
  h_S8x8448 : 0 < S8x8448.numel
  slices_S8x8448_o4_0_S4x8448 : S8x8448.Slices ![4, 0] S4x8448
  inb_S4x8448_S4x8448_0_0 : ∀ a, (![0, 0] : Fin 2 → Nat) a + S4x8448.size a ≤ S4x8448.size a
  h_S4x8448 : 0 < S4x8448.numel
  concatenates_S4x8448_S128x8448_S132x8448_d0 : Shape.Concatenates [S4x8448, S128x8448] S132x8448 0
  inb_S8448_S8448_0 : ∀ a, (![0] : Fin 1 → Nat) a + S8448.size a ≤ S8448.size a
  h_S8448 : 0 < S8448.numel
  shapeCasts_S8448_S1x8448 : S8448.ShapeCasts S1x8448
  shapeCasts_S1x8448_S1x8448 : S1x8448.ShapeCasts S1x8448
  broadcasts_S1x8448_S128x8448 : S1x8448.Broadcasts S128x8448
  inb_S4x8448_S1x8448_0_0 : ∀ a, (![0, 0] : Fin 2 → Nat) a + S1x8448.size a ≤ S4x8448.size a
  h_S1x8448 : 0 < S1x8448.numel
  shapeCasts_S1x8448_S8448 : S1x8448.ShapeCasts S8448
  slices_S132x8448_o0_0_S128x8448 : S132x8448.Slices ![0, 0] S128x8448
  inb_S4x8448_S1x8448_1_0 : ∀ a, (![1, 0] : Fin 2 → Nat) a + S1x8448.size a ≤ S4x8448.size a
  slices_S132x8448_o1_0_S128x8448 : S132x8448.Slices ![1, 0] S128x8448
  inb_S4x8448_S1x8448_2_0 : ∀ a, (![2, 0] : Fin 2 → Nat) a + S1x8448.size a ≤ S4x8448.size a
  slices_S132x8448_o2_0_S128x8448 : S132x8448.Slices ![2, 0] S128x8448
  inb_S4x8448_S1x8448_3_0 : ∀ a, (![3, 0] : Fin 2 → Nat) a + S1x8448.size a ≤ S4x8448.size a
  slices_S132x8448_o3_0_S128x8448 : S132x8448.Slices ![3, 0] S128x8448
  slices_S128x8448_o0_0_S128x8192 : S128x8448.Slices ![0, 0] S128x8192
  inb_S128x8192_S128x8192_0_0 : ∀ a, (![0, 0] : Fin 2 → Nat) a + S128x8192.size a ≤ S128x8192.size a
  h_S128x8192 : 0 < S128x8192.numel
  slices_S128x8448_o0_8192_S128x128 : S128x8448.Slices ![0, 8192] S128x128
  inb_S128x128_S128x128_0_0 : ∀ a, (![0, 0] : Fin 2 → Nat) a + S128x128.size a ≤ S128x128.size a
  h_S128x128 : 0 < S128x128.numel
  slices_S128x8448_o0_8320_S128x128 : S128x8448.Slices ![0, 8320] S128x128
  slices_S8192x8448_S4x8448_8188_0 : S8192x8448.Slices ![8188, 0] S4x8448
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8448.size a ≤ S8192x8448.size a
  hwx0_0 : ∀ i : grid0.Coords, EltTy.bits .f32 = 32 ∨ (Rect.block (s := S8192x8448) S128x8448.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8448.size a ≤ S8192x8448.size a
  hwx0_1 : ∀ i : grid0.Coords, EltTy.bits .f32 = 32 ∨ (Rect.block (s := S8192x8448) S8x8448.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x8448.size a ≤ S4x8448.size a
  hwx0_2 : ∀ i : grid0.Coords, EltTy.bits .f32 = 32 ∨ (Rect.block (s := S4x8448) S4x8448.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x8448.size a ≤ S4x8448.size a
  hwx0_3 : ∀ i : grid0.Coords, EltTy.bits .f32 = 32 ∨ (Rect.block (s := S4x8448) S4x8448.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8448.size a ≤ S8448.size a
  hwx0_4 : ∀ i : grid0.Coords, EltTy.bits .f32 = 32 ∨ (Rect.block (s := S8448) S8448.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x8192.size a ≤ S8192x8192.size a
  hwx0_5 : ∀ i : grid0.Coords, EltTy.bits .f32 = 32 ∨ (Rect.block (s := S8192x8192) S128x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S8192x128.size a
  hwx0_6 : ∀ i : grid0.Coords, EltTy.bits .f32 = 32 ∨ (Rect.block (s := S8192x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S8192x128.size a
  hwx0_7 : ∀ i : grid0.Coords, EltTy.bits .f32 = 32 ∨ (Rect.block (s := S8192x128) S128x128.size (cc0_transform_7 i) (hinb0_7 i)).WholeWords (EltTy.packing .f32)

variable [Facts₀]

abbrev win0_0 : Pipeline.Window sig grid0 :=
  Pipeline.Window.ofSpec (Memref.whole main_arg0) S128x8448.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x8448.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4x8448.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x8448.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S8448.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S128x8192.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S128x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1_2) S128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x8448 : Shape := ⟨2, ![8192, 8448]⟩
abbrev S4x8448 : Shape := ⟨2, ![4, 8448]⟩
abbrev S8448x4 : Shape := ⟨2, ![8448, 4]⟩
abbrev S8448 : Shape := ⟨1, ![8448]⟩
abbrev S8196x8448 : Shape := ⟨2, ![8196, 8448]⟩
abbrev S8448x1 : Shape := ⟨2, ![8448, 1]⟩
abbrev S1x8448 : Shape := ⟨2, ![1, 8448]⟩
abbrev S8192x8192 : Shape := ⟨2, ![8192, 8192]⟩
abbrev S8192x128 : Shape := ⟨2, ![8192, 128]⟩

abbrev nBuf : Space → Nat
  | .hbm => 39
  | .vmem => 0
  | .smem => 0
  | _ => 0

abbrev bufTy : (tb : Table) → Fin (tcTables nBuf tb) → BufTy
  | .hbm, ⟨0, _⟩ => ⟨S8192x8448, .f32⟩
  | .hbm, ⟨1, _⟩ => ⟨S4x8448, .f32⟩
  | .hbm, ⟨2, _⟩ => ⟨S8448x4, .f32⟩
  | .hbm, ⟨3, _⟩ => ⟨S8448, .f32⟩
  | .hbm, ⟨4, _⟩ => ⟨S8196x8448, .f32⟩
  | .hbm, ⟨5, _⟩ => ⟨S8192x8448, .f32⟩
  | .hbm, ⟨6, _⟩ => ⟨S8448x1, .f32⟩
  | .hbm, ⟨7, _⟩ => ⟨S8448, .f32⟩
  | .hbm, ⟨8, _⟩ => ⟨S1x8448, .f32⟩
  | .hbm, ⟨9, _⟩ => ⟨S8192x8448, .f32⟩
  | .hbm, ⟨10, _⟩ => ⟨S8192x8448, .f32⟩
  | .hbm, ⟨11, _⟩ => ⟨S1x8448, .f32⟩
  | .hbm, ⟨12, _⟩ => ⟨S8192x8448, .f32⟩
  | .hbm, ⟨13, _⟩ => ⟨S8192x8448, .f32⟩
  | .hbm, ⟨14, _⟩ => ⟨S8192x8448, .f32⟩
  | .hbm, ⟨15, _⟩ => ⟨S8448x1, .f32⟩
  | .hbm, ⟨16, _⟩ => ⟨S8448, .f32⟩
  | .hbm, ⟨17, _⟩ => ⟨S1x8448, .f32⟩
  | .hbm, ⟨18, _⟩ => ⟨S8192x8448, .f32⟩
  | .hbm, ⟨19, _⟩ => ⟨S8192x8448, .f32⟩
  | .hbm, ⟨20, _⟩ => ⟨S8192x8448, .f32⟩
  | .hbm, ⟨21, _⟩ => ⟨S8192x8448, .f32⟩
  | .hbm, ⟨22, _⟩ => ⟨S8448x1, .f32⟩
  | .hbm, ⟨23, _⟩ => ⟨S8448, .f32⟩
  | .hbm, ⟨24, _⟩ => ⟨S1x8448, .f32⟩
  | .hbm, ⟨25, _⟩ => ⟨S8192x8448, .f32⟩
  | .hbm, ⟨26, _⟩ => ⟨S8192x8448, .f32⟩
  | .hbm, ⟨27, _⟩ => ⟨S8192x8448, .f32⟩
  | .hbm, ⟨28, _⟩ => ⟨S8192x8448, .f32⟩
  | .hbm, ⟨29, _⟩ => ⟨S8448x1, .f32⟩
  | .hbm, ⟨30, _⟩ => ⟨S8448, .f32⟩
  | .hbm, ⟨31, _⟩ => ⟨S1x8448, .f32⟩
  | .hbm, ⟨32, _⟩ => ⟨S8192x8448, .f32⟩
  | .hbm, ⟨33, _⟩ => ⟨S8192x8448, .f32⟩
  | .hbm, ⟨34, _⟩ => ⟨S8192x8448, .f32⟩
  | .hbm, ⟨35, _⟩ => ⟨S4x8448, .f32⟩
  | .hbm, ⟨36, _⟩ => ⟨S8192x8192, .f32⟩
  | .hbm, ⟨37, _⟩ => ⟨S8192x128, .f32⟩
  | .hbm, ⟨38, _⟩ => ⟨S8192x128, .f32⟩
  | _, _ => ⟨S8192x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩

abbrev nD : Nat := 1
abbrev τ : Topo := Topo.v7x

variable {F : FTy → Type} [FloatOps F]

class Facts₀ : Prop where
  concatenates_S4x8448_S8192x8448_S8196x8448_d0 : Shape.Concatenates [S4x8448, S8192x8448] S8196x8448 0
  slices_S8196x8448_S8192x8448_0_0 : S8196x8448.Slices ![0, 0] S8192x8448
  slices_S8448x4_S8448x1_0_0 : S8448x4.Slices ![0, 0] S8448x1
  shapeCasts_S8448x1_S8448 : S8448x1.ShapeCasts S8448
  bcast_S8448_S1x8448_1 : S8448.BroadcastsInDim S1x8448 (![1] : Fin 1 → Fin S1x8448.rank)
  bcast_S1x8448_S8192x8448_0_1 : S1x8448.BroadcastsInDim S8192x8448 (![0, 1] : Fin 2 → Fin S8192x8448.rank)
  slices_S8196x8448_S8192x8448_1_0 : S8196x8448.Slices ![1, 0] S8192x8448
  slices_S8448x4_S8448x1_0_1 : S8448x4.Slices ![0, 1] S8448x1
  slices_S8196x8448_S8192x8448_2_0 : S8196x8448.Slices ![2, 0] S8192x8448
  slices_S8448x4_S8448x1_0_2 : S8448x4.Slices ![0, 2] S8448x1
  slices_S8196x8448_S8192x8448_3_0 : S8196x8448.Slices ![3, 0] S8192x8448
  slices_S8448x4_S8448x1_0_3 : S8448x4.Slices ![0, 3] S8448x1
  slices_S8196x8448_S4x8448_8192_0 : S8196x8448.Slices ![8192, 0] S4x8448
  slices_S8192x8448_S8192x8192_0_0 : S8192x8448.Slices ![0, 0] S8192x8192
  slices_S8192x8448_S8192x128_0_8192 : S8192x8448.Slices ![0, 8192] S8192x128
  slices_S8192x8448_S8192x128_0_8320 : S8192x8448.Slices ![0, 8320] S8192x128

variable [Facts₀]

class Facts : Prop extends Facts₀ where

variable [Facts]
-- ==== Proof.K.Body.lean ====
import proofs.«172043_j60765197304309_1_alg».proof.Proof.Gen.Kernel.Launch
import proofs.«172043_j60765197304309_1_alg».proof.Proof.Gen.Kernel.Skeleton
import proofs.«172043_j60765197304309_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The causal depthwise convolution kernel, one grid point at a time

The kernel runs over 64 row tiles. At tile `t` it is handed rows `128 t … 128 t + 127` of the input (window 0), the
eight rows before them (window 1, of the SAME input array: block `max (16 t - 1) 0` of eight rows), the carried-in state
(window 2), the transposed taps (window 3) and the bias (window 4), and writes a 128-row tile of each of three column
ranges of the result (windows 5, 6, 7). This module states what one run of the body leaves in the three output tiles as
a function of the five input tiles, proves the body's triple, and packages the proof data of the pipeline: the input
array is read through two windows, so each of the two holds one half of its points-to share.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The device's buffers after the one host operation before the region (the transposition of the taps). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the transposition, the region, then the slice of the last four input rows: it reduces to the region
    continued by that slice. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' tiles -/

/-- Window `w`'s tile at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rMain : Rect S128x8448 := Rect.unit (s := S128x8448) ![0, 0] S128x8448.size Facts₀.inb_S128x8448_S128x8448_0_0
abbrev rTail : Rect S8x8448 := Rect.unit (s := S8x8448) ![0, 0] S8x8448.size Facts₀.inb_S8x8448_S8x8448_0_0
abbrev rState : Rect S4x8448 := Rect.unit (s := S4x8448) ![0, 0] S4x8448.size Facts₀.inb_S4x8448_S4x8448_0_0
abbrev rBias : Rect S8448 := Rect.unit (s := S8448) ![0] S8448.size Facts₀.inb_S8448_S8448_0
abbrev rW0 : Rect S4x8448 := Rect.unit (s := S4x8448) ![0, 0] S1x8448.size Facts₀.inb_S4x8448_S1x8448_0_0
abbrev rW1 : Rect S4x8448 := Rect.unit (s := S4x8448) ![1, 0] S1x8448.size Facts₀.inb_S4x8448_S1x8448_1_0
abbrev rW2 : Rect S4x8448 := Rect.unit (s := S4x8448) ![2, 0] S1x8448.size Facts₀.inb_S4x8448_S1x8448_2_0
abbrev rW3 : Rect S4x8448 := Rect.unit (s := S4x8448) ![3, 0] S1x8448.size Facts₀.inb_S4x8448_S1x8448_3_0
abbrev rOutA : Rect S128x8192 := Rect.unit (s := S128x8192) ![0, 0] S128x8192.size Facts₀.inb_S128x8192_S128x8192_0_0
abbrev rOutB : Rect S128x128 := Rect.unit (s := S128x128) ![0, 0] S128x128.size Facts₀.inb_S128x128_S128x128_0_0

/-! ## What the body leaves in each output tile -/

/-- The first output tile (columns 0 … 8191 of the accumulated tile): one store of the whole tile. -/
def out0_5 (i : grid0.Coords) (x0 : Vec F S128x8448 .f32) (x1 : Vec F S8x8448 .f32) (x2 : Vec F S4x8448 .f32) (x3 : Vec F S4x8448 .f32) (x4 : Vec F S8448 .f32) : Vec F S128x8192 .f32 :=
  View.canon [⟨rOutA, k0_pay4 i (View.ld x0 rMain) (View.ld x1 rTail) (View.ld x2 rState) (View.ld x4 rBias) (View.ld x3 rW0) (View.ld x3 rW1) (View.ld x3 rW2) (View.ld x3 rW3)⟩]
/-- The second output tile (columns 8192 … 8319). -/
def out0_6 (i : grid0.Coords) (x0 : Vec F S128x8448 .f32) (x1 : Vec F S8x8448 .f32) (x2 : Vec F S4x8448 .f32) (x3 : Vec F S4x8448 .f32) (x4 : Vec F S8448 .f32) : Vec F S128x128 .f32 :=
  View.canon [⟨rOutB, k0_pay1 (k0_pay3 i (View.ld x0 rMain) (View.ld x1 rTail) (View.ld x2 rState) (View.ld x4 rBias) (View.ld x3 rW0) (View.ld x3 rW1) (View.ld x3 rW2) (View.ld x3 rW3))⟩]
/-- The third output tile (columns 8320 … 8447). -/
def out0_7 (i : grid0.Coords) (x0 : Vec F S128x8448 .f32) (x1 : Vec F S8x8448 .f32) (x2 : Vec F S4x8448 .f32) (x3 : Vec F S4x8448 .f32) (x4 : Vec F S8448 .f32) : Vec F S128x128 .f32 :=
  View.canon [⟨rOutB, k0_pay2 (k0_pay3 i (View.ld x0 rMain) (View.ld x1 rTail) (View.ld x2 rState) (View.ld x4 rBias) (View.ld x3 rW0) (View.ld x3 rW1) (View.ld x3 rW2) (View.ld x3 rW3))⟩]

theorem cover0_5 (p0 : Vec F S128x8192 .f32) (y : S128x8192.Idx) :
    ∃ pc ∈ ([⟨rOutA, p0⟩] : List (View.Piece (Elt F) S128x8192 .f32)), y ∈ pc.1.set :=
  View.cover_of_tiled [⟨rOutA, p0⟩] S128x8192.size (by rfl) y
theorem cover0_6 (p0 : Vec F S128x128 .f32) (y : S128x128.Idx) :
    ∃ pc ∈ ([⟨rOutB, p0⟩] : List (View.Piece (Elt F) S128x128 .f32)), y ∈ pc.1.set :=
  View.cover_of_tiled [⟨rOutB, p0⟩] S128x128.size (by rfl) y

/-! ## The body's triple -/

set_option maxHeartbeats 4000000 in
/-- The body on whole staging memrefs, the five inputs' at read contents `x0 … x4` and the three outputs' at anything,
    runs to the continuation holding the inputs' as they were and each output's at its tile function of the inputs'. -/
theorem sound_kernel (c : Dev nD) (E : Set ℕ) (i : grid0.Coords) (arg1 : Memref sig .tc .vmem S128x8448 .f32) (harg1 : arg1.IsWhole) (arg2 : Memref sig .tc .vmem S8x8448 .f32) (harg2 : arg2.IsWhole) (arg3 : Memref sig .tc .vmem S4x8448 .f32) (harg3 : arg3.IsWhole) (arg4 : Memref sig .tc .vmem S4x8448 .f32) (harg4 : arg4.IsWhole) (arg5 : Memref sig .tc .vmem S8448 .f32) (harg5 : arg5.IsWhole) (arg6 : Memref sig .tc .vmem S128x8192 .f32) (harg6 : arg6.IsWhole) (arg7 : Memref sig .tc .vmem S128x128 .f32) (harg7 : arg7.IsWhole) (arg8 : Memref sig .tc .vmem S128x128 .f32) (harg8 : arg8.IsWhole)
    (x0 : Vec F S128x8448 .f32) (x1 : Vec F S8x8448 .f32) (x2 : Vec F S4x8448 .f32) (x3 : Vec F S4x8448 .f32) (x4 : Vec F S8448 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 i x0 x1 x2 x3 x4) ∗ owns (c : Thread nD τ) arg7 fullShare (out0_6 i x0 x1 x2 x3 x4)
            ∗ owns (c : Thread nD τ) arg8 fullShare (out0_7 i x0 x1 x2 x3 x4)) -∗ K ⟨⟩))
      ⊢ wp frame (wpE (defs₀ (F := F)) Variants.none c none) E (cc0__cconv_kernel i arg1 harg1 arg2 harg2 arg3 harg3 arg4 harg4 arg5 harg5 arg6 harg6 arg7 harg7 arg8 harg8) K := by
  simp only [cc0__cconv_kernel_eq_skeleton]; unfold cc0__cconv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _)
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_6 _)

/-! ## The pipeline's proof data -/

/-- The proof data of the pipeline on core `c`: the arrays as the region finds them; after the body at point `t` each
    input's buffer at its tile and each output's at its tile function of the input tiles; the scoped rest and the
    generator register untouched; nothing owed. The input array is held one half by each of the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (grid0.coords t) (iblk m c 0 t) (iblk m c 1 t) (iblk m c 2 t) (iblk m c 3 t) (iblk m c 4 t)
    | ⟨6, _⟩ => out0_6 (grid0.coords t) (iblk m c 0 t) (iblk m c 1 t) (iblk m c 2 t) (iblk m c 3 t) (iblk m c 4 t)
    | ⟨7, _⟩ => out0_7 (grid0.coords t) (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (grid0.coords t) (iblk m c 0 t) (iblk m c 1 t) (iblk m c 2 t) (iblk m c 3 t) (iblk m c 4 t) := by dsimp only [dats]
theorem after0_6 (c : Dev nD) (t : Fin cfg0.N) : (dats m 0 c).after 6 t = out0_6 (grid0.coords t) (iblk m c 0 t) (iblk m c 1 t) (iblk m c 2 t) (iblk m c 3 t) (iblk m c 4 t) := by dsimp only [dats]
theorem after0_7 (c : Dev nD) (t : Fin cfg0.N) : (dats m 0 c).after 7 t = out0_7 (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
import proofs.«172043_j60765197304309_1_alg».proof.Proof.K.Body

/-!
# The launch: the region with two windows on one array, between two host operations

The input array is read through two windows, so the launch hands the pipeline ONE points-to of it, which is split into
two half shares (one per window) at the region's entry and joined again at its exit, where the host operation after the
region (the slice of the last four input rows) reads the array whole. Everything else is the usual launch of a kernel with
no semaphore, transfer or scratch of its own: the scoped rest and the generator register pass through the region
invariant untouched, and the two unscoped buffers no window stages (the weights and the carried-out state) bypass the
region.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's buffers after the host operation that follows the region, from the region-entry contents: that
    operation reads only the input array, which the region leaves as it found it. -/
abbrev W1 (c : Dev nD) : Valuation τ sig (Elt F) := StableHlo.after (List.flatten [hostOps1]) (V0 m c)

/-- The buffers no window stages, at the contents the host operation after the region leaves. -/
abbrev restOut (c : Dev nD) : sProp 𝕄 :=
  Pipeline.unscopedRestP (Ix := Unit) (Name := ℕ) (U := UR sig nD τ) (Lvl := ℕ) Pipeline.Prefetch.none spec0 c (fun b => W1 m c (Proc.devRef .tc b))

/-- The host operation after the region writes only the carried-out state: the input array is as the region found it, -/
theorem W1_arg0 (c : Dev nD) : W1 m c (Proc.devRef .tc main_arg0) = V m c main_arg0 :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.unary_writes, Finset.mem_singleton]
    exact StableHlo.devRef_ne_of_ne (by decide)))
/-- and so are the weights. -/
theorem W1_arg2 (c : Dev nD) : W1 m c (Proc.devRef .tc main_arg2) = V m c main_arg2 :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.unary_writes, Finset.mem_singleton]
    exact StableHlo.devRef_ne_of_ne (by decide)))

/-- The one points-to of the input array becomes the two windows' half shares; every other array is its window's. -/
theorem hsplit (c : Dev nD) :
    (Pipeline.arrBufs spec0 c (V m c) : sProp 𝕄) ⊢ (dats m 0 c).arrays ((dats m 0 c).arrAt · 0) := by
  have e : (Pipeline.arrBufs spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} V m c main_v0) ∗ (((c.tc : Thread nD τ).loc main_arg3) ↦{fullShare} V m c main_arg3)
          ∗ (((c.tc : Thread nD τ).loc main_v1_0) ↦{fullShare} V m c main_v1_0) ∗ (((c.tc : Thread nD τ).loc main_v1_1) ↦{fullShare} V m c main_v1_1)
          ∗ (((c.tc : Thread nD τ).loc main_v1_2) ↦{fullShare} V m c main_v1_2)) := by
    unfold Pipeline.arrBufs
    exact bigSep_eq_bigSepL_of_eq [main_arg0, main_arg1, main_v0, main_arg3, main_v1_0, main_v1_1, main_v1_2] (by decide) (by decide) _
  rw [e]
  unfold Pipeline.Dat.arrays
  rw [bigSep_W0]
  simp only [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  iintro ⟨H0, H1, H2, H3, H4, H5, H6⟩
  ihave H0 := (pointsTo_share (PosShare.mem_left_op_right fullShare)).1 $$ H0
  icases H0 with ⟨H0a, H0b⟩
  isplitl [H0a]; · iexact H0a
  isplitl [H0b]; · iexact H0b
  isplitl [H1]; · iexact H1
  isplitl [H2]; · iexact H2
  isplitl [H3]; · iexact H3
  isplitl [H4]; · iexact H4
  isplitl [H5]; · iexact H5
  iexact H6

/-- The host operation after the region, run from the region's exit. -/
theorem htail (c : Dev nD) (Q' : PUnit → sProp 𝕄) :
    iprop((iprop((dats m 0 c).arrays ((dats m 0 c).arrAt · cfg0.N) ∗ restOut m c) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  classical
  have hne : (Proc.devRef .tc main_arg0 : DevRef τ sig) ∉ ({Proc.devRef .tc main_v2} : Finset (DevRef τ sig)) := by
    rw [Finset.mem_singleton]; exact StableHlo.devRef_ne_of_ne (by decide)
  have hheld : ∀ Wv : Valuation τ sig (Elt F),
      (StableHlo.held (c.tc : Thread nD τ) ({Proc.devRef .tc main_arg0, Proc.devRef .tc main_v2} : Finset (DevRef τ sig)) Wv : sProp 𝕄)
        = iprop((((c.tc : Thread nD τ).loc main_arg0) ↦{fullShare} Wv (Proc.devRef .tc main_arg0))
            ∗ (((c.tc : Thread nD τ).loc main_v2) ↦{fullShare} Wv (Proc.devRef .tc main_v2))) := fun Wv => by
    unfold StableHlo.held
    rw [bigSep_insert hne, bigSep_singleton]; rfl
  have hS : ∀ ops ∈ ([hostOps1] : List (List (HloOp τ sig (Elt F)))), ∀ op ∈ ops,
      op.bufs ⊆ ({Proc.devRef .tc main_arg0, Proc.devRef .tc main_v2} : Finset (DevRef τ sig)) := by
    intro ops hops op hop
    simp only [List.mem_cons, List.mem_nil_iff, or_false] at hops
    subst hops
    simp only [hostOps1, List.mem_cons, List.mem_nil_iff, or_false] at hop
    subst hop
    exact subset_refl _
  have hf : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  have hjoin : iprop((((c.tc : Thread nD τ).loc main_arg0) ↦{(dats m 0 c).share 0} V m c (Pipeline.arrRef spec0 0))
        ∗ (((c.tc : Thread nD τ).loc main_arg0) ↦{(dats m 0 c).share 1} V m c (Pipeline.arrRef spec0 1)))
      ⊢ ((((c.tc : Thread nD τ).loc main_arg0) ↦{fullShare} V m c main_arg0 : sProp 𝕄)) :=
    (pointsTo_share (PosShare.mem_left_op_right fullShare)).2
  have hhalve : ((((c.tc : Thread nD τ).loc main_arg0) ↦{fullShare} V m c main_arg0 : sProp 𝕄))
      ⊢ iprop((((c.tc : Thread nD τ).loc main_arg0) ↦{(dats m 0 c).share 0} V m c (Pipeline.arrRef spec0 0))
        ∗ (((c.tc : Thread nD τ).loc main_arg0) ↦{(dats m 0 c).share 1} V m c (Pipeline.arrRef spec0 1))) :=
    (pointsTo_share (PosShare.mem_left_op_right fullShare)).1
  have hkeep : StableHlo.after (List.flatten [hostOps1]) (V0 m c) (Proc.devRef .tc main_arg0) = V m c main_arg0 := W1_arg0 m c
  unfold restOut Pipeline.Dat.arrays
  rw [bigSep_W0, Pipeline.unscopedRestP_none, Pipeline.unscopedRestP_none, unscopedRest0_eq, unscopedRest0_eq]
  simp only [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rw [(dats m 0 c).arrAt_in 0 rfl, (dats m 0 c).arrAt_in 1 rfl, A_eq m c 0, A_eq m c 1, W1_arg2 m c]
  iintro ⟨Hk, Hbd, HAs, Rw, Rv⟩
  icases HAs with ⟨Aa, Ab, Ac, Ad, Ae, Af, Ag, Ah⟩
  ihave HA := hjoin $$ [Aa Ab]
  · isplitl [Aa]; · iexact Aa
    iexact Ab
  iapply (Pipeline.wp_seqs_then (fun q => (cfgs q).toPCfg (Val := Elt F)) defs₀ Variants.none c
      ({Proc.devRef .tc main_arg0, Proc.devRef .tc main_v2} : Finset (DevRef τ sig)) [] [hostOps1] hS hf (V0 m c)) $$ [Hbd HA Rv]
  · rw [hheld]
    isplitl [Hbd]; · iexact Hbd
    isplitl [HA]; · iexact HA
    iexact Rv
  rw [hheld, hkeep]
  iintro ⟨Hbd, HA, Rv⟩
  rw [Pipeline.chain_nil, wp_pure]
  imodintro
  iapply Hk
  ihave Hs := hhalve $$ HA
  icases Hs with ⟨Aa, Ab⟩
  isplitr [Rw Rv]
  · isplitl [Aa]; · iexact Aa
    isplitl [Ab]; · iexact Ab
    isplitl [Ac]; · iexact Ac
    isplitl [Ad]; · iexact Ad
    isplitl [Ae]; · iexact Ae
    isplitl [Af]; · iexact Af
    isplitl [Ag]; · iexact Ag
    iexact Ah
  isplitl [Rw]; · iexact Rw
  iexact Rv

/-- What every final state satisfies: each window's array at what the write-backs leave, each buffer no window
    stages at what the host operation after the region leaves. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b) = W1 m c (Proc.devRef .tc b)

set_option backward.isDefEq.respectTransparency.types false in
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => restOut m c)
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = W1 m c (Proc.devRef .tc b))
    (hY := fun c s' => by
      iintro ⟨-, HU, HSI⟩
      unfold restOut Pipeline.unscopedRestP
      imodintro
      iapply (pointsTo_read_all (Pipeline.restRefsP sig Pipeline.Prefetch.none spec0) (fun b => (c.tc : Thread nD τ).loc b) (fun b => W1 m c (Proc.devRef .tc b)) s')
      isplitl [HU] <;> iassumption)
    (hQ := fun s h c => ⟨(h c).1, (h c).2.2⟩)

end Cert.Kernel.Hand

end
-- ==== Proof.K.Frame.lean ====
import proofs.«172043_j60765197304309_1_alg».proof.Proof.K.Launch

/-!
# The frame read off the run

The run's post has every window's array at what the write-backs leave and the two buffers no window stages at what the
host operation after the region leaves. The input array, the state and the bias are read through input windows, which
are never written back; the weights bypass the region; the one host operation before the region writes only the
transposed taps. So the four argument arrays end as launched.
-/

set_option maxRecDepth 16384

noncomputable section

namespace Cert.Kernel.Hand

open Idealize.ShloMosaic Idealize.ShloMosaic.TcCoe Idealize.ShloMosaic.Tactic
open Idealize.SL Idealize.SL.Sem
open Idealize.ShloMosaic.Pipeline (Dat Cfg Window)
open Cert.Kernel Cert.Kernel.Gen

variable {F : FTy → Type} [FloatOps F]

variable (m : (ℓ : Loc nD τ sig) → Buf (Elt F) ℓ) (ρ : Dev nD → PrngReg)

/-- The host operation before the region does not write argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The host operation before the region does not write argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The host operation before the region does not write argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The host operation before the region does not write argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))

/-- A buffer that is unscoped and no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

/-- The frame: every weakly fair execution terminates, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).2 main_arg2 (mem_rest main_arg2 (by decide) (by decide))).trans ((W1_arg2 m c).trans (V_main_arg2 m c)),
     ((h c).1 4).trans (((dats m 0 c).arrAt_in 4 rfl _).trans ((A_eq m c 4).trans (V_main_arg3 m c)))⟩) (run_main m ρ)

end Cert.Kernel.Hand

end
-- ==== Proof.KI.Body.lean ====
import proofs.«172043_j60765197304309_1_alg».proof.Proof.Gen.KernelIdeal.Launch
import proofs.«172043_j60765197304309_1_alg».proof.Proof.Gen.KernelIdeal.Skeleton
import proofs.«172043_j60765197304309_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The causal depthwise convolution kernel, one grid point at a time

The kernel runs over 64 row tiles. At tile `t` it is handed rows `128 t … 128 t + 127` of the input (window 0), the
eight rows before them (window 1, of the SAME input array: block `max (16 t - 1) 0` of eight rows), the carried-in state
(window 2), the transposed taps (window 3) and the bias (window 4), and writes a 128-row tile of each of three column
ranges of the result (windows 5, 6, 7). This module states what one run of the body leaves in the three output tiles as
a function of the five input tiles, proves the body's triple, and packages the proof data of the pipeline: the input
array is read through two windows, so each of the two holds one half of its points-to share.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- The device's buffers after the one host operation before the region (the transposition of the taps). -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the transposition, the region, then the slice of the last four input rows: it reduces to the region
    continued by that slice. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The windows' tiles -/

/-- Window `w`'s tile at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rMain : Rect S128x8448 := Rect.unit (s := S128x8448) ![0, 0] S128x8448.size Facts₀.inb_S128x8448_S128x8448_0_0
abbrev rTail : Rect S8x8448 := Rect.unit (s := S8x8448) ![0, 0] S8x8448.size Facts₀.inb_S8x8448_S8x8448_0_0
abbrev rState : Rect S4x8448 := Rect.unit (s := S4x8448) ![0, 0] S4x8448.size Facts₀.inb_S4x8448_S4x8448_0_0
abbrev rBias : Rect S8448 := Rect.unit (s := S8448) ![0] S8448.size Facts₀.inb_S8448_S8448_0
abbrev rW0 : Rect S4x8448 := Rect.unit (s := S4x8448) ![0, 0] S1x8448.size Facts₀.inb_S4x8448_S1x8448_0_0
abbrev rW1 : Rect S4x8448 := Rect.unit (s := S4x8448) ![1, 0] S1x8448.size Facts₀.inb_S4x8448_S1x8448_1_0
abbrev rW2 : Rect S4x8448 := Rect.unit (s := S4x8448) ![2, 0] S1x8448.size Facts₀.inb_S4x8448_S1x8448_2_0
abbrev rW3 : Rect S4x8448 := Rect.unit (s := S4x8448) ![3, 0] S1x8448.size Facts₀.inb_S4x8448_S1x8448_3_0
abbrev rOutA : Rect S128x8192 := Rect.unit (s := S128x8192) ![0, 0] S128x8192.size Facts₀.inb_S128x8192_S128x8192_0_0
abbrev rOutB : Rect S128x128 := Rect.unit (s := S128x128) ![0, 0] S128x128.size Facts₀.inb_S128x128_S128x128_0_0

/-! ## What the body leaves in each output tile -/

/-- The first output tile (columns 0 … 8191 of the accumulated tile): one store of the whole tile. -/
def out0_5 (i : grid0.Coords) (x0 : Vec F S128x8448 .f32) (x1 : Vec F S8x8448 .f32) (x2 : Vec F S4x8448 .f32) (x3 : Vec F S4x8448 .f32) (x4 : Vec F S8448 .f32) : Vec F S128x8192 .f32 :=
  View.canon [⟨rOutA, k0_pay4 i (View.ld x0 rMain) (View.ld x1 rTail) (View.ld x2 rState) (View.ld x4 rBias) (View.ld x3 rW0) (View.ld x3 rW1) (View.ld x3 rW2) (View.ld x3 rW3)⟩]
/-- The second output tile (columns 8192 … 8319). -/
def out0_6 (i : grid0.Coords) (x0 : Vec F S128x8448 .f32) (x1 : Vec F S8x8448 .f32) (x2 : Vec F S4x8448 .f32) (x3 : Vec F S4x8448 .f32) (x4 : Vec F S8448 .f32) : Vec F S128x128 .f32 :=
  View.canon [⟨rOutB, k0_pay1 (k0_pay3 i (View.ld x0 rMain) (View.ld x1 rTail) (View.ld x2 rState) (View.ld x4 rBias) (View.ld x3 rW0) (View.ld x3 rW1) (View.ld x3 rW2) (View.ld x3 rW3))⟩]
/-- The third output tile (columns 8320 … 8447). -/
def out0_7 (i : grid0.Coords) (x0 : Vec F S128x8448 .f32) (x1 : Vec F S8x8448 .f32) (x2 : Vec F S4x8448 .f32) (x3 : Vec F S4x8448 .f32) (x4 : Vec F S8448 .f32) : Vec F S128x128 .f32 :=
  View.canon [⟨rOutB, k0_pay2 (k0_pay3 i (View.ld x0 rMain) (View.ld x1 rTail) (View.ld x2 rState) (View.ld x4 rBias) (View.ld x3 rW0) (View.ld x3 rW1) (View.ld x3 rW2) (View.ld x3 rW3))⟩]

theorem cover0_5 (p0 : Vec F S128x8192 .f32) (y : S128x8192.Idx) :
    ∃ pc ∈ ([⟨rOutA, p0⟩] : List (View.Piece (Elt F) S128x8192 .f32)), y ∈ pc.1.set :=
  View.cover_of_tiled [⟨rOutA, p0⟩] S128x8192.size (by rfl) y
theorem cover0_6 (p0 : Vec F S128x128 .f32) (y : S128x128.Idx) :
    ∃ pc ∈ ([⟨rOutB, p0⟩] : List (View.Piece (Elt F) S128x128 .f32)), y ∈ pc.1.set :=
  View.cover_of_tiled [⟨rOutB, p0⟩] S128x128.size (by rfl) y

/-! ## The body's triple -/

set_option maxHeartbeats 4000000 in
/-- The body on whole staging memrefs, the five inputs' at read contents `x0 … x4` and the three outputs' at anything,
    runs to the continuation holding the inputs' as they were and each output's at its tile function of the inputs'. -/
theorem sound_kernel (c : Dev nD) (E : Set ℕ) (i : grid0.Coords) (arg1 : Memref sig .tc .vmem S128x8448 .f32) (harg1 : arg1.IsWhole) (arg2 : Memref sig .tc .vmem S8x8448 .f32) (harg2 : arg2.IsWhole) (arg3 : Memref sig .tc .vmem S4x8448 .f32) (harg3 : arg3.IsWhole) (arg4 : Memref sig .tc .vmem S4x8448 .f32) (harg4 : arg4.IsWhole) (arg5 : Memref sig .tc .vmem S8448 .f32) (harg5 : arg5.IsWhole) (arg6 : Memref sig .tc .vmem S128x8192 .f32) (harg6 : arg6.IsWhole) (arg7 : Memref sig .tc .vmem S128x128 .f32) (harg7 : arg7.IsWhole) (arg8 : Memref sig .tc .vmem S128x128 .f32) (harg8 : arg8.IsWhole)
    (x0 : Vec F S128x8448 .f32) (x1 : Vec F S8x8448 .f32) (x2 : Vec F S4x8448 .f32) (x3 : Vec F S4x8448 .f32) (x4 : Vec F S8448 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 i x0 x1 x2 x3 x4) ∗ owns (c : Thread nD τ) arg7 fullShare (out0_6 i x0 x1 x2 x3 x4)
            ∗ owns (c : Thread nD τ) arg8 fullShare (out0_7 i x0 x1 x2 x3 x4)) -∗ K ⟨⟩))
      ⊢ wp frame (wpE (defs₀ (F := F)) Variants.none c none) E (cc0__cconv_kernel i arg1 harg1 arg2 harg2 arg3 harg3 arg4 harg4 arg5 harg5 arg6 harg6 arg7 harg7 arg8 harg8) K := by
  simp only [cc0__cconv_kernel_eq_skeleton]; unfold cc0__cconv_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (cover0_5 _)
  isplitl [H6]
  · iexists _; isplitr
    swap; · iexact H6
    ipureintro
    try dsimp only
    exact View.read_writes_eq_canon _ _ _ (cover0_6 _)
  iexists _; isplitr
  swap; · iexact H7
  ipureintro
  try dsimp only
  exact View.read_writes_eq_canon _ _ _ (cover0_6 _)

/-! ## The pipeline's proof data -/

/-- The proof data of the pipeline on core `c`: the arrays as the region finds them; after the body at point `t` each
    input's buffer at its tile and each output's at its tile function of the input tiles; the scoped rest and the
    generator register untouched; nothing owed. The input array is held one half by each of the two windows on it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (grid0.coords t) (iblk m c 0 t) (iblk m c 1 t) (iblk m c 2 t) (iblk m c 3 t) (iblk m c 4 t)
    | ⟨6, _⟩ => out0_6 (grid0.coords t) (iblk m c 0 t) (iblk m c 1 t) (iblk m c 2 t) (iblk m c 3 t) (iblk m c 4 t)
    | ⟨7, _⟩ => out0_7 (grid0.coords t) (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (grid0.coords t) (iblk m c 0 t) (iblk m c 1 t) (iblk m c 2 t) (iblk m c 3 t) (iblk m c 4 t) := by dsimp only [dats]
theorem after0_6 (c : Dev nD) (t : Fin cfg0.N) : (dats m 0 c).after 6 t = out0_6 (grid0.coords t) (iblk m c 0 t) (iblk m c 1 t) (iblk m c 2 t) (iblk m c 3 t) (iblk m c 4 t) := by dsimp only [dats]
theorem after0_7 (c : Dev nD) (t : Fin cfg0.N) : (dats m 0 c).after 7 t = out0_7 (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
import proofs.«172043_j60765197304309_1_alg».proof.Proof.KI.Body

/-!
# The launch: the region with two windows on one array, between two host operations

The input array is read through two windows, so the launch hands the pipeline ONE points-to of it, which is split into
two half shares (one per window) at the region's entry and joined again at its exit, where the host operation after the
region (the slice of the last four input rows) reads the array whole. Everything else is the usual launch of a kernel with
no semaphore, transfer or scratch of its own: the scoped rest and the generator register pass through the region
invariant untouched, and the two unscoped buffers no window stages (the weights and the carried-out state) bypass the
region.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's buffers after the host operation that follows the region, from the region-entry contents: that
    operation reads only the input array, which the region leaves as it found it. -/
abbrev W1 (c : Dev nD) : Valuation τ sig (Elt F) := StableHlo.after (List.flatten [hostOps1]) (V0 m c)

/-- The buffers no window stages, at the contents the host operation after the region leaves. -/
abbrev restOut (c : Dev nD) : sProp 𝕄 :=
  Pipeline.unscopedRestP (Ix := Unit) (Name := ℕ) (U := UR sig nD τ) (Lvl := ℕ) Pipeline.Prefetch.none spec0 c (fun b => W1 m c (Proc.devRef .tc b))

/-- The host operation after the region writes only the carried-out state: the input array is as the region found it, -/
theorem W1_arg0 (c : Dev nD) : W1 m c (Proc.devRef .tc main_arg0) = V m c main_arg0 :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.unary_writes, Finset.mem_singleton]
    exact StableHlo.devRef_ne_of_ne (by decide)))
/-- and so are the weights. -/
theorem W1_arg2 (c : Dev nD) : W1 m c (Proc.devRef .tc main_arg2) = V m c main_arg2 :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.unary_writes, Finset.mem_singleton]
    exact StableHlo.devRef_ne_of_ne (by decide)))

/-- The one points-to of the input array becomes the two windows' half shares; every other array is its window's. -/
theorem hsplit (c : Dev nD) :
    (Pipeline.arrBufs spec0 c (V m c) : sProp 𝕄) ⊢ (dats m 0 c).arrays ((dats m 0 c).arrAt · 0) := by
  have e : (Pipeline.arrBufs spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_v0) ↦{fullShare} V m c main_v0) ∗ (((c.tc : Thread nD τ).loc main_arg3) ↦{fullShare} V m c main_arg3)
          ∗ (((c.tc : Thread nD τ).loc main_v1_0) ↦{fullShare} V m c main_v1_0) ∗ (((c.tc : Thread nD τ).loc main_v1_1) ↦{fullShare} V m c main_v1_1)
          ∗ (((c.tc : Thread nD τ).loc main_v1_2) ↦{fullShare} V m c main_v1_2)) := by
    unfold Pipeline.arrBufs
    exact bigSep_eq_bigSepL_of_eq [main_arg0, main_arg1, main_v0, main_arg3, main_v1_0, main_v1_1, main_v1_2] (by decide) (by decide) _
  rw [e]
  unfold Pipeline.Dat.arrays
  rw [bigSep_W0]
  simp only [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  iintro ⟨H0, H1, H2, H3, H4, H5, H6⟩
  ihave H0 := (pointsTo_share (PosShare.mem_left_op_right fullShare)).1 $$ H0
  icases H0 with ⟨H0a, H0b⟩
  isplitl [H0a]; · iexact H0a
  isplitl [H0b]; · iexact H0b
  isplitl [H1]; · iexact H1
  isplitl [H2]; · iexact H2
  isplitl [H3]; · iexact H3
  isplitl [H4]; · iexact H4
  isplitl [H5]; · iexact H5
  iexact H6

/-- The host operation after the region, run from the region's exit. -/
theorem htail (c : Dev nD) (Q' : PUnit → sProp 𝕄) :
    iprop((iprop((dats m 0 c).arrays ((dats m 0 c).arrAt · cfg0.N) ∗ restOut m c) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (defs (F := F)) (Variants.lift Variants.none) (c.tc : Thread nD τ) none) Set.univ (Pipeline.chain [StableHlo.seq hostOps1]) Q' := by
  classical
  have hne : (Proc.devRef .tc main_arg0 : DevRef τ sig) ∉ ({Proc.devRef .tc main_v2} : Finset (DevRef τ sig)) := by
    rw [Finset.mem_singleton]; exact StableHlo.devRef_ne_of_ne (by decide)
  have hheld : ∀ Wv : Valuation τ sig (Elt F),
      (StableHlo.held (c.tc : Thread nD τ) ({Proc.devRef .tc main_arg0, Proc.devRef .tc main_v2} : Finset (DevRef τ sig)) Wv : sProp 𝕄)
        = iprop((((c.tc : Thread nD τ).loc main_arg0) ↦{fullShare} Wv (Proc.devRef .tc main_arg0))
            ∗ (((c.tc : Thread nD τ).loc main_v2) ↦{fullShare} Wv (Proc.devRef .tc main_v2))) := fun Wv => by
    unfold StableHlo.held
    rw [bigSep_insert hne, bigSep_singleton]; rfl
  have hS : ∀ ops ∈ ([hostOps1] : List (List (HloOp τ sig (Elt F)))), ∀ op ∈ ops,
      op.bufs ⊆ ({Proc.devRef .tc main_arg0, Proc.devRef .tc main_v2} : Finset (DevRef τ sig)) := by
    intro ops hops op hop
    simp only [List.mem_cons, List.mem_nil_iff, or_false] at hops
    subst hops
    simp only [hostOps1, List.mem_cons, List.mem_nil_iff, or_false] at hop
    subst hop
    exact subset_refl _
  have hf : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  have hjoin : iprop((((c.tc : Thread nD τ).loc main_arg0) ↦{(dats m 0 c).share 0} V m c (Pipeline.arrRef spec0 0))
        ∗ (((c.tc : Thread nD τ).loc main_arg0) ↦{(dats m 0 c).share 1} V m c (Pipeline.arrRef spec0 1)))
      ⊢ ((((c.tc : Thread nD τ).loc main_arg0) ↦{fullShare} V m c main_arg0 : sProp 𝕄)) :=
    (pointsTo_share (PosShare.mem_left_op_right fullShare)).2
  have hhalve : ((((c.tc : Thread nD τ).loc main_arg0) ↦{fullShare} V m c main_arg0 : sProp 𝕄))
      ⊢ iprop((((c.tc : Thread nD τ).loc main_arg0) ↦{(dats m 0 c).share 0} V m c (Pipeline.arrRef spec0 0))
        ∗ (((c.tc : Thread nD τ).loc main_arg0) ↦{(dats m 0 c).share 1} V m c (Pipeline.arrRef spec0 1))) :=
    (pointsTo_share (PosShare.mem_left_op_right fullShare)).1
  have hkeep : StableHlo.after (List.flatten [hostOps1]) (V0 m c) (Proc.devRef .tc main_arg0) = V m c main_arg0 := W1_arg0 m c
  unfold restOut Pipeline.Dat.arrays
  rw [bigSep_W0, Pipeline.unscopedRestP_none, Pipeline.unscopedRestP_none, unscopedRest0_eq, unscopedRest0_eq]
  simp only [(arr_whole0 0).set_eq_univ, (arr_whole0 2).set_eq_univ, (arr_whole0 3).set_eq_univ,
    (arr_whole0 4).set_eq_univ, (arr_whole0 5).set_eq_univ, (arr_whole0 6).set_eq_univ, (arr_whole0 7).set_eq_univ]
  rw [(dats m 0 c).arrAt_in 0 rfl, (dats m 0 c).arrAt_in 1 rfl, A_eq m c 0, A_eq m c 1, W1_arg2 m c]
  iintro ⟨Hk, Hbd, HAs, Rw, Rv⟩
  icases HAs with ⟨Aa, Ab, Ac, Ad, Ae, Af, Ag, Ah⟩
  ihave HA := hjoin $$ [Aa Ab]
  · isplitl [Aa]; · iexact Aa
    iexact Ab
  iapply (Pipeline.wp_seqs_then (fun q => (cfgs q).toPCfg (Val := Elt F)) defs₀ Variants.none c
      ({Proc.devRef .tc main_arg0, Proc.devRef .tc main_v2} : Finset (DevRef τ sig)) [] [hostOps1] hS hf (V0 m c)) $$ [Hbd HA Rv]
  · rw [hheld]
    isplitl [Hbd]; · iexact Hbd
    isplitl [HA]; · iexact HA
    iexact Rv
  rw [hheld, hkeep]
  iintro ⟨Hbd, HA, Rv⟩
  rw [Pipeline.chain_nil, wp_pure]
  imodintro
  iapply Hk
  ihave Hs := hhalve $$ HA
  icases Hs with ⟨Aa, Ab⟩
  isplitr [Rw Rv]
  · isplitl [Aa]; · iexact Aa
    isplitl [Ab]; · iexact Ab
    isplitl [Ac]; · iexact Ac
    isplitl [Ad]; · iexact Ad
    isplitl [Ae]; · iexact Ae
    isplitl [Af]; · iexact Af
    isplitl [Ag]; · iexact Ag
    iexact Ah
  isplitl [Rw]; · iexact Rw
  iexact Rv

/-- What every final state satisfies: each window's array at what the write-backs leave, each buffer no window
    stages at what the host operation after the region leaves. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefsP sig Pipeline.Prefetch.none spec0, r.2.mem ((c.tc : Thread nD τ).loc b) = W1 m c (Proc.devRef .tc b)

set_option backward.isDefEq.respectTransparency.types false in
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => restOut m c)
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => ∀ b ∈ Pipeline.restRefsP sig Pipeline.Prefetch.none spec0, s.mem ((c.tc : Thread nD τ).loc b) = W1 m c (Proc.devRef .tc b))
    (hY := fun c s' => by
      iintro ⟨-, HU, HSI⟩
      unfold restOut Pipeline.unscopedRestP
      imodintro
      iapply (pointsTo_read_all (Pipeline.restRefsP sig Pipeline.Prefetch.none spec0) (fun b => (c.tc : Thread nD τ).loc b) (fun b => W1 m c (Proc.devRef .tc b)) s')
      isplitl [HU] <;> iassumption)
    (hQ := fun s h c => ⟨(h c).1, (h c).2.2⟩)

end Cert.KernelIdeal.Hand

end
-- ==== Proof.KI.Tile.lean ====
import proofs.«172043_j60765197304309_1_alg».proof.Proof.KI.Body
import Idealize.ShloMosaic.Lib.ValueIdx
import Idealize.ShloMosaic.Lib.Pipeline.Value
import Idealize.ShloMosaic.Lib.ValueLayout

/-!
# One accumulated tile, element by element

At a grid point the body stacks four carried rows over its 128 input rows (the state at the first point, the last four of
the eight rows before the tile at every other point) and adds, to the broadcast bias, the four row-shifted copies of that
132-row tile each scaled by its tap. This module reads the accumulated tile at row `p`, channel `q`.
-/

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

/-- Row `k` (of 132) of the tile with its four carried rows on top, at channel `q`: the state when this is the first
    grid point, else rows 4 … 7 of the eight rows before the tile; then the tile's own rows. -/
def extRow (first : Bool) (x0 : Vec Ideal S128x8448 .f32) (x1 : Vec Ideal S8x8448 .f32) (x2 : Vec Ideal S4x8448 .f32)
    (k : ℕ) (hk : k < 132) (q : Fin 8448) : EReal :=
  if h : k < 4 then (if first then x2 (ix2 (⟨k, h⟩ : Fin 4) q) else x1 (ix2 (⟨k + 4, by omega⟩ : Fin 8) q))
  else x0 (ix2 (⟨k - 4, by omega⟩ : Fin 128) q)

/-- The accumulated tile at row `p`, channel `q`: the bias, then the four taps in order. -/
def tileConv (first : Bool) (x0 : Vec Ideal S128x8448 .f32) (x1 : Vec Ideal S8x8448 .f32) (x2 : Vec Ideal S4x8448 .f32)
    (x3 : Vec Ideal S4x8448 .f32) (x4 : Vec Ideal S8448 .f32) (p : Fin 128) (q : Fin 8448) : EReal :=
  (((x4 (ix1 q) + extRow first x0 x1 x2 p.val (by omega) q * x3 (ix2 (0 : Fin 4) q))
      + extRow first x0 x1 x2 (p.val + 1) (by omega) q * x3 (ix2 (1 : Fin 4) q))
      + extRow first x0 x1 x2 (p.val + 2) (by omega) q * x3 (ix2 (2 : Fin 4) q))
      + extRow first x0 x1 x2 (p.val + 3) (by omega) q * x3 (ix2 (3 : Fin 4) q)

/-! ## The loads

The four whole-tile loads read their tiles; the load of tap row `j` reads row `j` of the taps. -/

theorem zeros2 : (![0, 0] : Fin 2 → Nat) = fun _ => 0 := funext fun a => by
  match a with
  | ⟨0, _⟩ => rfl
  | ⟨1, _⟩ => rfl
theorem zeros1 : (![0] : Fin 1 → Nat) = fun _ => 0 := funext fun a => by
  match a with
  | ⟨0, _⟩ => rfl

theorem ld_main (x0 : Vec Ideal S128x8448 .f32) : View.ld x0 rMain = x0 := View.ld_unit_zero (S := S128x8448) zeros2 _ x0
theorem ld_tail (x1 : Vec Ideal S8x8448 .f32) : View.ld x1 rTail = x1 := View.ld_unit_zero (S := S8x8448) zeros2 _ x1
theorem ld_state (x2 : Vec Ideal S4x8448 .f32) : View.ld x2 rState = x2 := View.ld_unit_zero (S := S4x8448) zeros2 _ x2
theorem ld_bias (x4 : Vec Ideal S8448 .f32) : View.ld x4 rBias = x4 := View.ld_unit_zero (S := S8448) zeros1 _ x4

theorem ld_tap0 (x3 : Vec Ideal S4x8448 .f32) (q : Fin 8448) : View.ld x3 rW0 (ix2 (0 : Fin 1) q) = x3 (ix2 (0 : Fin 4) q) :=
  congrArg x3 (funext fun a => Fin.ext (by
    match a with
    | ⟨0, _⟩ => rfl
    | ⟨1, _⟩ => show 0 + 1 * q.val = q.val; omega))
theorem ld_tap1 (x3 : Vec Ideal S4x8448 .f32) (q : Fin 8448) : View.ld x3 rW1 (ix2 (0 : Fin 1) q) = x3 (ix2 (1 : Fin 4) q) :=
  congrArg x3 (funext fun a => Fin.ext (by
    match a with
    | ⟨0, _⟩ => rfl
    | ⟨1, _⟩ => show 0 + 1 * q.val = q.val; omega))
theorem ld_tap2 (x3 : Vec Ideal S4x8448 .f32) (q : Fin 8448) : View.ld x3 rW2 (ix2 (0 : Fin 1) q) = x3 (ix2 (2 : Fin 4) q) :=
  congrArg x3 (funext fun a => Fin.ext (by
    match a with
    | ⟨0, _⟩ => rfl
    | ⟨1, _⟩ => show 0 + 1 * q.val = q.val; omega))
theorem ld_tap3 (x3 : Vec Ideal S4x8448 .f32) (q : Fin 8448) : View.ld x3 rW3 (ix2 (0 : Fin 1) q) = x3 (ix2 (3 : Fin 4) q) :=
  congrArg x3 (funext fun a => Fin.ext (by
    match a with
    | ⟨0, _⟩ => rfl
    | ⟨1, _⟩ => show 0 + 1 * q.val = q.val; omega))

/-! ## The operations that move data, read at row `p`, channel `q` -/

/-- The select on "grid coordinate 0 is zero": below 2³² the 32-bit word of a number is zero only for zero. -/
theorem select_first {α : Type} (n : ℕ) (hn : n < 64) (a b : α) :
    Scalar.select (Scalar.cmpi .eq (BitVec.ofNat 32 n) 0#32) a b = if decide (n = 0) then a else b := by
  by_cases h : n = 0
  · subst h; rfl
  · have hb : (BitVec.ofNat 32 n == 0#32) = false := by
      rw [beq_eq_false_iff_ne]
      intro e
      have := congrArg BitVec.toNat e
      simp at this
      omega
    have hd : decide (n = 0) = false := decide_eq_false h
    rw [hd]
    unfold Scalar.select Scalar.cmpi IntOp.cmpi
    simp [hb]

/-- The 132-row tile: four carried rows `c` on top of the tile `x0`. -/
theorem stack_apply {α : Type} (c : S4x8448.Idx → α) (x0 : S128x8448.Idx → α)
    (h : Shape.Concatenates [S4x8448, S128x8448] S132x8448 0) (k : Fin 132) (q : Fin 8448) :
    concatenate S132x8448 0 [⟨S4x8448, c⟩, ⟨S128x8448, x0⟩] h (ix2 k q)
      = if hk : k.val < 4 then c (ix2 (⟨k.val, hk⟩ : Fin 4) q) else x0 (ix2 (⟨k.val - 4, by omega⟩ : Fin 128) q) := by
  by_cases hk : k.val < 4
  · rw [dif_pos hk]
    exact concatenate_pair_apply_left 0 c x0 h (ix2 k q) rfl (ix2 (⟨k.val, hk⟩ : Fin 4) q) (fun b => by
      match b with
      | ⟨0, _⟩ => rfl
      | ⟨1, _⟩ => rfl)
  · rw [dif_neg hk]
    exact concatenate_pair_apply_right 0 c x0 h (ix2 k q) rfl rfl (ix2 (⟨k.val - 4, by omega⟩ : Fin 128) q)
      (fun b hb => by
        match b with
        | ⟨0, _⟩ => exact absurd rfl hb
        | ⟨1, _⟩ => rfl)
      (by show k.val - 4 + 4 = k.val; omega)

/-- The 128 rows of the 132-row tile from row `o` on. -/
theorem shift_apply {α : Type} (o : ℕ) (ho : o ≤ 4) (v : S132x8448.Idx → α) (h : S132x8448.Slices ![o, 0] S128x8448)
    (p : Fin 128) (q : Fin 8448) :
    extractStridedSlice S128x8448 ![o, 0] v h (ix2 p q) = v (ix2 (⟨p.val + o, by omega⟩ : Fin 132) q) :=
  slice2_axis0_apply o v h p q _ (by show p.val + o = o + p.val; omega)

/-- Rows 4 … 7 of the eight rows before the tile. -/
theorem tail_apply {α : Type} (x1 : S8x8448.Idx → α) (h : S8x8448.Slices ![4, 0] S4x8448) (k : Fin 4) (q : Fin 8448) :
    extractStridedSlice S4x8448 ![4, 0] x1 h (ix2 k q) = x1 (ix2 (⟨k.val + 4, by omega⟩ : Fin 8) q) :=
  slice2_axis0_apply 4 x1 h k q _ (by show k.val + 4 = 4 + k.val; omega)

/-- A tap row, re-laid as a vector and back, broadcast down the 128 rows. -/
theorem tap_apply {α : Type} (w : S1x8448.Idx → α) (h1 : S1x8448.ShapeCasts S8448) (h2 : S8448.ShapeCasts S1x8448)
    (h3 : S1x8448.Broadcasts S128x8448) (p : Fin 128) (q : Fin 8448) :
    broadcastTo S128x8448 (shapeCast S1x8448 (shapeCast S8448 w h1) h2) h3 (ix2 p q) = w (ix2 (0 : Fin 1) q) := by
  rw [broadcastTo_1b_ab_apply, shapeCast_a_1a_apply, shapeCast_1a_a_apply]

/-- The bias, laid as one row, broadcast down the 128 rows. -/
theorem bias_apply {α : Type} (b : S8448.Idx → α) (h1 : S8448.ShapeCasts S1x8448) (h2 : S1x8448.ShapeCasts S1x8448)
    (h3 : S1x8448.Broadcasts S128x8448) (p : Fin 128) (q : Fin 8448) :
    broadcastTo S128x8448 (shapeCast S1x8448 (shapeCast S1x8448 b h1) h2) h3 (ix2 p q) = b (ix1 q) := by
  rw [broadcastTo_1b_ab_apply, shapeCast_self, shapeCast_a_1a_apply]

/-- Row `p + o` of the 132-row tile as the body builds it: the select on the first grid point between the state and the
    tail rows, stacked over the tile, cut from row `o`. -/
theorem shifted_apply (i : grid0.Coords) (x0 : Vec Ideal S128x8448 .f32) (x1 : Vec Ideal S8x8448 .f32) (x2 : Vec Ideal S4x8448 .f32)
    (h4 : S8x8448.Slices ![4, 0] S4x8448) (hc : Shape.Concatenates [S4x8448, S128x8448] S132x8448 0)
    (o : ℕ) (ho : o ≤ 4) (hs : S132x8448.Slices ![o, 0] S128x8448) (p : Fin 128) (q : Fin 8448) :
    extractStridedSlice S128x8448 ![o, 0]
        (concatenate S132x8448 0 [⟨S4x8448, (Scalar.select (Scalar.cmpi .eq (BitVec.ofNat 32 (i 0).val) 0#32) x2
          (extractStridedSlice S4x8448 ![4, 0] x1 h4) : Vec Ideal S4x8448 .f32)⟩, ⟨S128x8448, x0⟩] hc) hs (ix2 p q)
      = extRow (decide ((i 0).val = 0)) x0 x1 x2 (p.val + o) (by omega) q := by
  have hi : (i 0).val < 64 := (i 0).isLt
  rw [shift_apply o ho, stack_apply]
  unfold extRow
  by_cases hk : p.val + o < 4
  · rw [dif_pos hk, dif_pos hk, select_first _ hi]
    by_cases hf : (i 0).val = 0
    · rw [decide_eq_true hf, if_pos rfl, if_pos rfl]
    · rw [decide_eq_false hf, if_neg Bool.false_ne_true, if_neg Bool.false_ne_true]
      exact tail_apply x1 h4 _ q
  · rw [dif_neg hk, dif_neg hk]

/-- The body's accumulated tile, read at an index. -/
theorem acc_apply (i : grid0.Coords) (x0 : Vec Ideal S128x8448 .f32) (x1 : Vec Ideal S8x8448 .f32) (x2 : Vec Ideal S4x8448 .f32)
    (x3 : Vec Ideal S4x8448 .f32) (x4 : Vec Ideal S8448 .f32) (p : Fin 128) (q : Fin 8448) :
    k0_pay3 (F := Ideal) i (View.ld x0 rMain) (View.ld x1 rTail) (View.ld x2 rState) (View.ld x4 rBias)
        (View.ld x3 rW0) (View.ld x3 rW1) (View.ld x3 rW2) (View.ld x3 rW3) (ix2 p q)
      = tileConv (decide ((i 0).val = 0)) x0 x1 x2 x3 x4 p q := by
  rw [ld_main, ld_tail, ld_state, ld_bias]
  unfold k0_pay3 tileConv
  simp only [addf_apply, mulf_apply]
  rw [bias_apply, tap_apply, tap_apply, tap_apply, tap_apply, ld_tap0, ld_tap1, ld_tap2, ld_tap3,
    shifted_apply i x0 x1 x2 _ _ 0 (by omega), shifted_apply i x0 x1 x2 _ _ 1 (by omega),
    shifted_apply i x0 x1 x2 _ _ 2 (by omega), shifted_apply i x0 x1 x2 _ _ 3 (by omega)]
  rfl

end Cert.KernelIdeal.Hand

end
-- ==== Proof.Spec.lean ====
import Idealize.ShloMosaic.PureOps.Ideal
import Idealize.ShloMosaic.Lib.ValueIdx

/-!
# The causal depthwise convolution with carried state, as one function of the arguments

For an input `x` of 8192 rows and 8448 channels, a carried state `st` of 4 rows, per-channel taps `w` (four per
channel) and a per-channel bias `b`, stack the state over the input (`padded`: rows 0 … 3 are the state, row `k + 4`
is input row `k`). Output row `r`, channel `c` is

  `((((b c + padded r c · w c 0) + padded (r+1) c · w c 1) + padded (r+2) c · w c 2) + padded (r+3) c · w c 3)`,

the sum taken in exactly that order on the extended reals. The three results are the column ranges 0 … 8191,
8192 … 8319 and 8320 … 8447 of that array, and the fourth result (the state carried out) is the last four input rows.
-/

noncomputable section

namespace Cert.Spec

open Idealize.ShloMosaic Idealize.ShloMosaic.ValueIdx

abbrev SX : Shape := ⟨2, ![8192, 8448]⟩
abbrev SSt : Shape := ⟨2, ![4, 8448]⟩
abbrev SW : Shape := ⟨2, ![8448, 4]⟩
abbrev SB : Shape := ⟨1, ![8448]⟩
abbrev SO1 : Shape := ⟨2, ![8192, 8192]⟩
abbrev SO2 : Shape := ⟨2, ![8192, 128]⟩

/-- Row `k` of the state stacked over the input, at channel `c`. -/
def padded (x : SX.Idx → EReal) (st : SSt.Idx → EReal) (k : ℕ) (hk : k < 8196) (c : Fin 8448) : EReal :=
  if h : k < 4 then st (ix2 (⟨k, h⟩ : Fin 4) c) else x (ix2 (⟨k - 4, by omega⟩ : Fin 8192) c)

/-- The convolution at row `r`, channel `c`: the bias, then the four taps added in order. -/
def conv (x : SX.Idx → EReal) (st : SSt.Idx → EReal) (w : SW.Idx → EReal) (b : SB.Idx → EReal) (r : Fin 8192) (c : Fin 8448) : EReal :=
  (((b (ix1 c) + padded x st r.val (by omega) c * w (ix2 c (0 : Fin 4)))
      + padded x st (r.val + 1) (by omega) c * w (ix2 c (1 : Fin 4)))
      + padded x st (r.val + 2) (by omega) c * w (ix2 c (2 : Fin 4)))
      + padded x st (r.val + 3) (by omega) c * w (ix2 c (3 : Fin 4))

/-- Channels 0 … 8191. -/
def out1 (x : SX.Idx → EReal) (st : SSt.Idx → EReal) (w : SW.Idx → EReal) (b : SB.Idx → EReal) : SO1.Idx → EReal :=
  fun j => conv x st w b ⟨(j 0).val, idx2_lt0 j⟩ ⟨(j 1).val, Nat.lt_of_lt_of_le (idx2_lt1 j) (by decide)⟩
/-- Channels 8192 … 8319. -/
def out2 (x : SX.Idx → EReal) (st : SSt.Idx → EReal) (w : SW.Idx → EReal) (b : SB.Idx → EReal) : SO2.Idx → EReal :=
  fun j => conv x st w b ⟨(j 0).val, idx2_lt0 j⟩ ⟨8192 + (j 1).val, by have := idx2_lt1 j; omega⟩
/-- Channels 8320 … 8447. -/
def out3 (x : SX.Idx → EReal) (st : SSt.Idx → EReal) (w : SW.Idx → EReal) (b : SB.Idx → EReal) : SO2.Idx → EReal :=
  fun j => conv x st w b ⟨(j 0).val, idx2_lt0 j⟩ ⟨8320 + (j 1).val, by have := idx2_lt1 j; omega⟩
/-- The state carried out: the last four input rows. -/
def stateOut (x : SX.Idx → EReal) : SSt.Idx → EReal :=
  fun j => x (ix2 (⟨8188 + (j 0).val, by have := idx2_lt0 j; omega⟩ : Fin 8192) ⟨(j 1).val, idx2_lt1 j⟩)

example : Elt Ideal (.f32 : EltTy) = EReal := rfl

end Cert.Spec

end
-- ==== Proof.KI.Value.lean ====
import proofs.«172043_j60765197304309_1_alg».proof.Proof.KI.Tile
import proofs.«172043_j60765197304309_1_alg».proof.Proof.Spec

/-!
# From tiles to arrays

Each of the 64 grid points writes back a 128-row tile of each result; the tiles partition the rows. Read at global row
`128 t + p`, the tile's carried rows are the state (first point) or input rows `128 t - 4 … 128 t - 1`, so the tile's
element is the convolution of the specification at that row. The three result arrays after the run are therefore the
specification's three column ranges.
-/

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The windows' block indices, decided once over the grid

At grid point `t` the input tile, and each of the three result tiles, is row block `t`; the eight rows before the tile
are row block `16 t - 1` of eight (block `0` at the first point); the state, the transposed taps and the bias are whole. -/

/-- Each window's block index at point `t`, and the point's grid coordinate. -/
theorem idx_facts : ∀ t : Fin cfg0.N,
    win0_0.index t (0 : Fin 2) = t.val ∧ win0_0.index t (1 : Fin 2) = 0
  ∧ win0_1.index t (0 : Fin 2) = (if t.val = 0 then 0 else 16 * t.val - 1) ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 1) = 0
  ∧ win0_5.index t (0 : Fin 2) = t.val ∧ win0_5.index t (1 : Fin 2) = 0
  ∧ win0_6.index t (0 : Fin 2) = t.val ∧ win0_6.index t (1 : Fin 2) = 0
  ∧ win0_7.index t (0 : Fin 2) = t.val ∧ win0_7.index t (1 : Fin 2) = 0
  ∧ ((grid0.coords t) 0).val = t.val :=
  (by decide +kernel : ∀ t : Fin grid0.N, _)

/-! ## The arrays as the region finds them

The one host operation before the region writes the transposed taps and nothing else. -/

/-- The one host operation before the region writes the transposed taps only: the input is as launched. -/
theorem V_arg0 (c : Dev nD) : V m c main_arg0 = m ((c : Thread nD τ).loc main_arg0) := by
  show StableHlo.after hostOps0 (fun b => m (c, b)) (Proc.devRef .tc main_arg0) = _
  refine StableHlo.after_of_forall_not_mem _ _ fun op hop => ?_
  obtain rfl := List.mem_singleton.mp hop
  rw [StableHlo.unary_writes, Finset.mem_singleton]
  exact StableHlo.devRef_ne_of_ne (by decide)
/-- The state is as launched. -/
theorem V_arg1 (c : Dev nD) : V m c main_arg1 = m ((c : Thread nD τ).loc main_arg1) := by
  show StableHlo.after hostOps0 (fun b => m (c, b)) (Proc.devRef .tc main_arg1) = _
  refine StableHlo.after_of_forall_not_mem _ _ fun op hop => ?_
  obtain rfl := List.mem_singleton.mp hop
  rw [StableHlo.unary_writes, Finset.mem_singleton]
  exact StableHlo.devRef_ne_of_ne (by decide)
/-- The bias is as launched. -/
theorem V_arg3 (c : Dev nD) : V m c main_arg3 = m ((c : Thread nD τ).loc main_arg3) := by
  show StableHlo.after hostOps0 (fun b => m (c, b)) (Proc.devRef .tc main_arg3) = _
  refine StableHlo.after_of_forall_not_mem _ _ fun op hop => ?_
  obtain rfl := List.mem_singleton.mp hop
  rw [StableHlo.unary_writes, Finset.mem_singleton]
  exact StableHlo.devRef_ne_of_ne (by decide)

/-- The transposed taps are the transpose of the taps as launched. -/
theorem V_v0 (c : Dev nD) : (V m c main_v0 : S4x8448.Idx → EReal) = transpose S4x8448 [1, 0] (m ((c : Thread nD τ).loc main_arg2) : S8448x4.Idx → EReal) Facts₀.transposes_S8448x4_S4x8448_1_0 := by
  show StableHlo.after hostOps0 (fun b => m (c, b)) (Proc.devRef .tc main_v0) = _
  after_results

/-! ## Each input tile read at an index -/

/-- The input tile at point `t` is input rows `128 t … 128 t + 127`. -/
theorem iblk0_apply (c : Dev nD) (t : Fin cfg0.N) (p : Fin 128) (q : Fin 8448) :
    (iblk m c 0 t : Vec Ideal S128x8448 .f32) (ix2 p q)
      = (m ((c : Thread nD τ).loc main_arg0) : S8192x8448.Idx → EReal) (ix2 (⟨128 * t.val + p.val, by have := t.isLt; have hN : cfg0.N = 64 := N_0; omega⟩ : Fin 8192) q) := by
  obtain ⟨e0, e1, -⟩ := idx_facts t
  unfold iblk
  rw [View.read_apply]
  show V m c main_arg0 _ = m (c.tc.loc main_arg0) _
  rw [V_arg0]
  refine congrArg _ ?_
  funext a; apply Fin.ext
  match a with
  | ⟨0, _⟩ => show win0_0.index t 0 * 128 + 1 * p.val = 128 * t.val + p.val; rw [e0]; omega
  | ⟨1, _⟩ => show win0_0.index t 1 * 8448 + 1 * q.val = q.val; rw [e1]; omega

/-- Past the first point, the eight rows before the tile are input rows `128 t - 8 … 128 t - 1`. -/
theorem iblk1_apply (c : Dev nD) (t : Fin cfg0.N) (ht : t.val ≠ 0) (k : Fin 8) (q : Fin 8448) :
    (iblk m c 1 t : Vec Ideal S8x8448 .f32) (ix2 k q)
      = (m ((c : Thread nD τ).loc main_arg0) : S8192x8448.Idx → EReal) (ix2 (⟨128 * t.val - 8 + k.val, by have := t.isLt; have := k.isLt; have hN : cfg0.N = 64 := N_0; omega⟩ : Fin 8192) q) := by
  obtain ⟨-, -, e0, e1, -⟩ := idx_facts t
  rw [if_neg ht] at e0
  unfold iblk
  rw [View.read_apply]
  show V m c main_arg0 _ = m (c.tc.loc main_arg0) _
  rw [V_arg0]
  refine congrArg _ ?_
  funext a; apply Fin.ext
  match a with
  | ⟨0, _⟩ => show win0_1.index t 0 * 8 + 1 * k.val = 128 * t.val - 8 + k.val; rw [e0]; omega
  | ⟨1, _⟩ => show win0_1.index t 1 * 8448 + 1 * q.val = q.val; rw [e1]; omega

/-- The state tile is the state. -/
theorem iblk2_apply (c : Dev nD) (t : Fin cfg0.N) (k : Fin 4) (q : Fin 8448) :
    (iblk m c 2 t : Vec Ideal S4x8448 .f32) (ix2 k q)
      = (m ((c : Thread nD τ).loc main_arg1) : S4x8448.Idx → EReal) (ix2 k q) := by
  obtain ⟨-, -, -, -, e0, e1, -⟩ := idx_facts t
  unfold iblk
  rw [View.read_apply]
  show V m c main_arg1 _ = m (c.tc.loc main_arg1) _
  rw [V_arg1]
  refine congrArg _ ?_
  funext a; apply Fin.ext
  match a with
  | ⟨0, _⟩ => show win0_2.index t 0 * 4 + 1 * k.val = k.val; rw [e0]; omega
  | ⟨1, _⟩ => show win0_2.index t 1 * 8448 + 1 * q.val = q.val; rw [e1]; omega

/-- The taps tile at tap `k`, channel `q` is the launched taps at channel `q`, tap `k`. -/
theorem iblk3_apply (c : Dev nD) (t : Fin cfg0.N) (k : Fin 4) (q : Fin 8448) :
    (iblk m c 3 t : Vec Ideal S4x8448 .f32) (ix2 k q)
      = (m ((c : Thread nD τ).loc main_arg2) : S8448x4.Idx → EReal) (ix2 q k) := by
  obtain ⟨-, -, -, -, -, -, e0, e1, -⟩ := idx_facts t
  unfold iblk
  rw [View.read_apply]
  show (V m c main_v0 : S4x8448.Idx → EReal) _ = m (c.tc.loc main_arg2) _
  rw [V_v0]
  refine transpose_apply _ _ _ _ (ix2 q k) fun b => ?_
  match b with
  | ⟨0, _⟩ => show k.val = win0_3.index t 0 * 4 + 1 * k.val; rw [e0]; omega
  | ⟨1, _⟩ => show q.val = win0_3.index t 1 * 8448 + 1 * q.val; rw [e1]; omega

/-- The bias tile is the bias. -/
theorem iblk4_apply (c : Dev nD) (t : Fin cfg0.N) (q : Fin 8448) :
    (iblk m c 4 t : Vec Ideal S8448 .f32) (ix1 q)
      = (m ((c : Thread nD τ).loc main_arg3) : S8448.Idx → EReal) (ix1 q) := by
  obtain ⟨-, -, -, -, -, -, -, -, e0, -⟩ := idx_facts t
  unfold iblk
  rw [View.read_apply]
  show V m c main_arg3 _ = m (c.tc.loc main_arg3) _
  rw [V_arg3]
  refine congrArg _ ?_
  funext a; apply Fin.ext
  match a with
  | ⟨0, _⟩ => show win0_4.index t 0 * 8448 + 1 * q.val = q.val; rw [e0]; omega

/-! ## The tile's convolution is the specification's, row by row -/

/-- A row of the tile with its carried rows on top is the same row of the state stacked over the input, when the
    tile's rows are input rows `128 T …` and its carried rows the state (first tile) or the four input rows before. -/
theorem extRow_eq_padded (first : Bool) (T : ℕ) (hT : T < 64) (hfirst : first = decide (T = 0))
    (x0 : Vec Ideal S128x8448 .f32) (x1 : Vec Ideal S8x8448 .f32) (x2 : Vec Ideal S4x8448 .f32)
    (X : Cert.Spec.SX.Idx → EReal) (St : Cert.Spec.SSt.Idx → EReal)
    (h0 : ∀ (p : Fin 128) (q : Fin 8448), x0 (ix2 p q) = X (ix2 (⟨128 * T + p.val, by have := p.isLt; omega⟩ : Fin 8192) q))
    (h1 : ∀ (hT0 : T ≠ 0) (k : Fin 8) (q : Fin 8448), x1 (ix2 k q) = X (ix2 (⟨128 * T - 8 + k.val, by have := k.isLt; omega⟩ : Fin 8192) q))
    (h2 : ∀ (k : Fin 4) (q : Fin 8448), x2 (ix2 k q) = St (ix2 k q))
    (k : ℕ) (hk : k < 132) (q : Fin 8448) (r : ℕ) (hr : r = 128 * T + k) (hr' : r < 8196) :
    extRow first x0 x1 x2 k hk q = Cert.Spec.padded X St r hr' q := by
  subst hr
  unfold extRow Cert.Spec.padded
  by_cases hk4 : k < 4
  · rw [dif_pos hk4]
    by_cases hT0 : T = 0
    · subst hT0
      subst hfirst
      rw [dif_pos (by omega), if_pos (by decide), h2]
      exact congrArg St (congrArg (fun a => ix2 a q) (Fin.ext (by show k = 128 * 0 + k; omega)))
    · subst hfirst
      rw [dif_neg (by omega), if_neg (by simpa using hT0), h1 hT0]
      exact congrArg X (congrArg (fun a => ix2 a q) (Fin.ext (by show 128 * T - 8 + (k + 4) = 128 * T + k - 4; omega)))
  · rw [dif_neg hk4, dif_neg (by omega), h0]
    exact congrArg X (congrArg (fun a => ix2 a q) (Fin.ext (by show 128 * T + (k - 4) = 128 * T + k - 4; omega)))

/-- The accumulated tile at row `p` of tile `T` is the convolution of the specification at row `128 T + p`. -/
theorem tileConv_eq_conv (first : Bool) (T : ℕ) (hT : T < 64) (hfirst : first = decide (T = 0))
    (x0 : Vec Ideal S128x8448 .f32) (x1 : Vec Ideal S8x8448 .f32) (x2 : Vec Ideal S4x8448 .f32)
    (x3 : Vec Ideal S4x8448 .f32) (x4 : Vec Ideal S8448 .f32)
    (X : Cert.Spec.SX.Idx → EReal) (St : Cert.Spec.SSt.Idx → EReal) (W : Cert.Spec.SW.Idx → EReal) (B : Cert.Spec.SB.Idx → EReal)
    (h0 : ∀ (p : Fin 128) (q : Fin 8448), x0 (ix2 p q) = X (ix2 (⟨128 * T + p.val, by have := p.isLt; omega⟩ : Fin 8192) q))
    (h1 : ∀ (hT0 : T ≠ 0) (k : Fin 8) (q : Fin 8448), x1 (ix2 k q) = X (ix2 (⟨128 * T - 8 + k.val, by have := k.isLt; omega⟩ : Fin 8192) q))
    (h2 : ∀ (k : Fin 4) (q : Fin 8448), x2 (ix2 k q) = St (ix2 k q))
    (h3 : ∀ (k : Fin 4) (q : Fin 8448), x3 (ix2 k q) = W (ix2 q k))
    (h4 : ∀ q : Fin 8448, x4 (ix1 q) = B (ix1 q))
    (p : Fin 128) (q : Fin 8448) (r : Fin 8192) (hr : r.val = 128 * T + p.val) :
    tileConv first x0 x1 x2 x3 x4 p q = Cert.Spec.conv X St W B r q := by
  have hp := p.isLt
  unfold tileConv Cert.Spec.conv
  rw [extRow_eq_padded first T hT hfirst x0 x1 x2 X St h0 h1 h2 p.val (by omega) q r.val hr (by omega),
    extRow_eq_padded first T hT hfirst x0 x1 x2 X St h0 h1 h2 (p.val + 1) (by omega) q (r.val + 1) (by omega) (by omega),
    extRow_eq_padded first T hT hfirst x0 x1 x2 X St h0 h1 h2 (p.val + 2) (by omega) q (r.val + 2) (by omega) (by omega),
    extRow_eq_padded first T hT hfirst x0 x1 x2 X St h0 h1 h2 (p.val + 3) (by omega) q (r.val + 3) (by omega) (by omega),
    h3, h3, h3, h3, h4]

/-- The accumulated tile of grid point `t` at row `p` is the specification's convolution at row `128 t + p`. -/
theorem conv_at (c : Dev nD) (t : Fin cfg0.N) (p : Fin 128) (q : Fin 8448) (r : Fin 8192) (q' : Fin 8448)
    (hr : r.val = 128 * t.val + p.val) (hq : q'.val = q.val) :
    tileConv (decide (((grid0.coords t) 0).val = 0)) (iblk m c 0 t) (iblk m c 1 t) (iblk m c 2 t) (iblk m c 3 t) (iblk m c 4 t) p q
      = Cert.Spec.conv (m ((c : Thread nD τ).loc main_arg0)) (m ((c : Thread nD τ).loc main_arg1)) (m ((c : Thread nD τ).loc main_arg2)) (m ((c : Thread nD τ).loc main_arg3)) r q' := by
  obtain rfl : q' = q := Fin.ext hq
  have hN : cfg0.N = 64 := N_0
  have ht := t.isLt
  exact tileConv_eq_conv _ t.val (by omega) (congrArg (fun n => decide (n = 0)) (idx_facts t).2.2.2.2.2.2.2.2.2.2.2.2.2.2.2)
    (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3))
    (fun p q => iblk0_apply m c t p q) (fun h k q => iblk1_apply m c t h k q) (fun k q => iblk2_apply m c t k q)
    (fun k q => iblk3_apply m c t k q) (fun q => iblk4_apply m c t q) p q' r hr

/-! ## The three stored tiles are column ranges of the accumulated tile -/

/-- The first output tile at row `p`, column `q`: the accumulated tile at channel `q`. -/
theorem pay4_apply (i : grid0.Coords) (x0 : Vec Ideal S128x8448 .f32) (x1 : Vec Ideal S8x8448 .f32) (x2 : Vec Ideal S4x8448 .f32)
    (x3 : Vec Ideal S4x8448 .f32) (x4 : Vec Ideal S8448 .f32) (p : Fin 128) (q : Fin 8192) :
    k0_pay4 (F := Ideal) i (View.ld x0 rMain) (View.ld x1 rTail) (View.ld x2 rState) (View.ld x4 rBias)
        (View.ld x3 rW0) (View.ld x3 rW1) (View.ld x3 rW2) (View.ld x3 rW3) (ix2 p q)
      = tileConv (decide ((i 0).val = 0)) x0 x1 x2 x3 x4 p (⟨q.val, by have := q.isLt; omega⟩ : Fin 8448) := by
  unfold k0_pay4
  refine (extractStridedSlice_apply _ _ _ (ix2 p q) (ix2 p (⟨q.val, by have := q.isLt; omega⟩ : Fin 8448)) fun a => ?_).trans
    (acc_apply i x0 x1 x2 x3 x4 p _)
  match a with
  | ⟨0, _⟩ => show p.val = 0 + p.val; omega
  | ⟨1, _⟩ => show q.val = 0 + q.val; omega

/-- The second output tile at row `p`, column `q`: the accumulated tile at channel `8192 + q`. -/
theorem pay1_apply (i : grid0.Coords) (x0 : Vec Ideal S128x8448 .f32) (x1 : Vec Ideal S8x8448 .f32) (x2 : Vec Ideal S4x8448 .f32)
    (x3 : Vec Ideal S4x8448 .f32) (x4 : Vec Ideal S8448 .f32) (p : Fin 128) (q : Fin 128) :
    k0_pay1 (F := Ideal) (k0_pay3 (F := Ideal) i (View.ld x0 rMain) (View.ld x1 rTail) (View.ld x2 rState) (View.ld x4 rBias)
        (View.ld x3 rW0) (View.ld x3 rW1) (View.ld x3 rW2) (View.ld x3 rW3)) (ix2 p q)
      = tileConv (decide ((i 0).val = 0)) x0 x1 x2 x3 x4 p (⟨8192 + q.val, by have := q.isLt; omega⟩ : Fin 8448) := by
  unfold k0_pay1
  refine (extractStridedSlice_apply _ _ _ (ix2 p q) (ix2 p (⟨8192 + q.val, by have := q.isLt; omega⟩ : Fin 8448)) fun a => ?_).trans
    (acc_apply i x0 x1 x2 x3 x4 p _)
  match a with
  | ⟨0, _⟩ => show p.val = 0 + p.val; omega
  | ⟨1, _⟩ => show 8192 + q.val = 8192 + q.val; rfl

/-- The third output tile at row `p`, column `q`: the accumulated tile at channel `8320 + q`. -/
theorem pay2_apply (i : grid0.Coords) (x0 : Vec Ideal S128x8448 .f32) (x1 : Vec Ideal S8x8448 .f32) (x2 : Vec Ideal S4x8448 .f32)
    (x3 : Vec Ideal S4x8448 .f32) (x4 : Vec Ideal S8448 .f32) (p : Fin 128) (q : Fin 128) :
    k0_pay2 (F := Ideal) (k0_pay3 (F := Ideal) i (View.ld x0 rMain) (View.ld x1 rTail) (View.ld x2 rState) (View.ld x4 rBias)
        (View.ld x3 rW0) (View.ld x3 rW1) (View.ld x3 rW2) (View.ld x3 rW3)) (ix2 p q)
      = tileConv (decide ((i 0).val = 0)) x0 x1 x2 x3 x4 p (⟨8320 + q.val, by have := q.isLt; omega⟩ : Fin 8448) := by
  unfold k0_pay2
  refine (extractStridedSlice_apply _ _ _ (ix2 p q) (ix2 p (⟨8320 + q.val, by have := q.isLt; omega⟩ : Fin 8448)) fun a => ?_).trans
    (acc_apply i x0 x1 x2 x3 x4 p _)
  match a with
  | ⟨0, _⟩ => show p.val = 0 + p.val; omega
  | ⟨1, _⟩ => show 8320 + q.val = 8320 + q.val; rfl

/-! ## What each grid point writes back -/

/-- The zero offsets of a whole-tile store. -/
theorem origin2 : (![0, 0] : Fin 2 → Nat) = fun _ => 0 := funext fun a => by
  match a with
  | ⟨0, _⟩ => rfl
  | ⟨1, _⟩ => rfl

/-- What grid point `t` writes back to the first result is its 128-row block of the specification's first result. -/
theorem flushed5_eq (c : Dev nD) (t : Fin cfg0.N) :
    (dats (F := Ideal) m 0 c).flushed 5 t = ((cfg0.win 5).blk t).view.read (Elt Ideal) (Cert.Spec.out1 (m ((c : Thread nD τ).loc main_arg0)) (m ((c : Thread nD τ).loc main_arg1)) (m ((c : Thread nD τ).loc main_arg2)) (m ((c : Thread nD τ).loc main_arg3))) := by
  show (cfg0.win 5).cut (grid0.coords t) ((dats m 0 c).after 5 t) = _
  rw [after0_5]
  unfold out0_5
  rw [View.canon_unit_zero origin2]
  obtain ⟨-, -, -, -, -, -, -, -, -, e0, e1, -⟩ := idx_facts t
  funext j
  have hj0 : (j 0).val < 128 := (j 0).isLt
  have hj1 : (j 1).val < 8192 := (j 1).isLt
  have hx : (cfg0.win 5).xinj (grid0.coords t) j = ix2 (⟨(j 0).val, hj0⟩ : Fin 128) (⟨(j 1).val, hj1⟩ : Fin 8192) :=
    funext fun a => by
      match a with
      | ⟨0, _⟩ => rfl
      | ⟨1, _⟩ => rfl
  rw [View.read_apply]
  show k0_pay4 (F := Ideal) (grid0.coords t) (View.ld (iblk m c 0 t) rMain) (View.ld (iblk m c 1 t) rTail) (View.ld (iblk m c 2 t) rState) (View.ld (iblk m c 4 t) rBias) (View.ld (iblk m c 3 t) rW0) (View.ld (iblk m c 3 t) rW1) (View.ld (iblk m c 3 t) rW2) (View.ld (iblk m c 3 t) rW3) ((cfg0.win 5).xinj (grid0.coords t) j)
    = Cert.Spec.out1 (m ((c : Thread nD τ).loc main_arg0)) (m ((c : Thread nD τ).loc main_arg1)) (m ((c : Thread nD τ).loc main_arg2)) (m ((c : Thread nD τ).loc main_arg3)) (((cfg0.win 5).blk t).view.emb j)
  rw [hx]
  refine (pay4_apply (grid0.coords t) (iblk m c 0 t) (iblk m c 1 t) (iblk m c 2 t) (iblk m c 3 t) (iblk m c 4 t) ⟨(j 0).val, hj0⟩ ⟨(j 1).val, hj1⟩).trans ?_
  refine conv_at m c t _ _ _ _ ?_ ?_
  · show win0_5.index t 0 * 128 + 1 * (j 0).val = 128 * t.val + (j 0).val; rw [e0]; omega
  · show win0_5.index t 1 * 8192 + 1 * (j 1).val = (j 1).val; rw [e1]; omega

/-- What grid point `t` writes back to the second result is its 128-row block of the specification's second result. -/
theorem flushed6_eq (c : Dev nD) (t : Fin cfg0.N) :
    (dats (F := Ideal) m 0 c).flushed 6 t = ((cfg0.win 6).blk t).view.read (Elt Ideal) (Cert.Spec.out2 (m ((c : Thread nD τ).loc main_arg0)) (m ((c : Thread nD τ).loc main_arg1)) (m ((c : Thread nD τ).loc main_arg2)) (m ((c : Thread nD τ).loc main_arg3))) := by
  show (cfg0.win 6).cut (grid0.coords t) ((dats m 0 c).after 6 t) = _
  rw [after0_6]
  unfold out0_6
  rw [View.canon_unit_zero origin2]
  obtain ⟨-, -, -, -, -, -, -, -, -, -, -, e0, e1, -⟩ := idx_facts t
  funext j
  have hj0 : (j 0).val < 128 := (j 0).isLt
  have hj1 : (j 1).val < 128 := (j 1).isLt
  have hx : (cfg0.win 6).xinj (grid0.coords t) j = ix2 (⟨(j 0).val, hj0⟩ : Fin 128) (⟨(j 1).val, hj1⟩ : Fin 128) :=
    funext fun a => by
      match a with
      | ⟨0, _⟩ => rfl
      | ⟨1, _⟩ => rfl
  rw [View.read_apply]
  show k0_pay1 (F := Ideal) (k0_pay3 (F := Ideal) (grid0.coords t) (View.ld (iblk m c 0 t) rMain) (View.ld (iblk m c 1 t) rTail) (View.ld (iblk m c 2 t) rState) (View.ld (iblk m c 4 t) rBias) (View.ld (iblk m c 3 t) rW0) (View.ld (iblk m c 3 t) rW1) (View.ld (iblk m c 3 t) rW2) (View.ld (iblk m c 3 t) rW3)) ((cfg0.win 6).xinj (grid0.coords t) j)
    = Cert.Spec.out2 (m ((c : Thread nD τ).loc main_arg0)) (m ((c : Thread nD τ).loc main_arg1)) (m ((c : Thread nD τ).loc main_arg2)) (m ((c : Thread nD τ).loc main_arg3)) (((cfg0.win 6).blk t).view.emb j)
  rw [hx]
  refine (pay1_apply (grid0.coords t) (iblk m c 0 t) (iblk m c 1 t) (iblk m c 2 t) (iblk m c 3 t) (iblk m c 4 t) ⟨(j 0).val, hj0⟩ ⟨(j 1).val, hj1⟩).trans ?_
  refine conv_at m c t _ _ _ _ ?_ ?_
  · show win0_6.index t 0 * 128 + 1 * (j 0).val = 128 * t.val + (j 0).val; rw [e0]; omega
  · show 8192 + (win0_6.index t 1 * 128 + 1 * (j 1).val) = 8192 + (j 1).val; rw [e1]; omega

/-- What grid point `t` writes back to the third result is its 128-row block of the specification's third result. -/
theorem flushed7_eq (c : Dev nD) (t : Fin cfg0.N) :
    (dats (F := Ideal) m 0 c).flushed 7 t = ((cfg0.win 7).blk t).view.read (Elt Ideal) (Cert.Spec.out3 (m ((c : Thread nD τ).loc main_arg0)) (m ((c : Thread nD τ).loc main_arg1)) (m ((c : Thread nD τ).loc main_arg2)) (m ((c : Thread nD τ).loc main_arg3))) := by
  show (cfg0.win 7).cut (grid0.coords t) ((dats m 0 c).after 7 t) = _
  rw [after0_7]
  unfold out0_7
  rw [View.canon_unit_zero origin2]
  obtain ⟨-, -, -, -, -, -, -, -, -, -, -, -, -, e0, e1, -⟩ := idx_facts t
  funext j
  have hj0 : (j 0).val < 128 := (j 0).isLt
  have hj1 : (j 1).val < 128 := (j 1).isLt
  have hx : (cfg0.win 7).xinj (grid0.coords t) j = ix2 (⟨(j 0).val, hj0⟩ : Fin 128) (⟨(j 1).val, hj1⟩ : Fin 128) :=
    funext fun a => by
      match a with
      | ⟨0, _⟩ => rfl
      | ⟨1, _⟩ => rfl
  rw [View.read_apply]
  show k0_pay2 (F := Ideal) (k0_pay3 (F := Ideal) (grid0.coords t) (View.ld (iblk m c 0 t) rMain) (View.ld (iblk m c 1 t) rTail) (View.ld (iblk m c 2 t) rState) (View.ld (iblk m c 4 t) rBias) (View.ld (iblk m c 3 t) rW0) (View.ld (iblk m c 3 t) rW1) (View.ld (iblk m c 3 t) rW2) (View.ld (iblk m c 3 t) rW3)) ((cfg0.win 7).xinj (grid0.coords t) j)
    = Cert.Spec.out3 (m ((c : Thread nD τ).loc main_arg0)) (m ((c : Thread nD τ).loc main_arg1)) (m ((c : Thread nD τ).loc main_arg2)) (m ((c : Thread nD τ).loc main_arg3)) (((cfg0.win 7).blk t).view.emb j)
  rw [hx]
  refine (pay2_apply (grid0.coords t) (iblk m c 0 t) (iblk m c 1 t) (iblk m c 2 t) (iblk m c 3 t) (iblk m c 4 t) ⟨(j 0).val, hj0⟩ ⟨(j 1).val, hj1⟩).trans ?_
  refine conv_at m c t _ _ _ _ ?_ ?_
  · show win0_7.index t 0 * 128 + 1 * (j 0).val = 128 * t.val + (j 0).val; rw [e0]; omega
  · show 8320 + (win0_7.index t 1 * 128 + 1 * (j 1).val) = 8320 + (j 1).val; rw [e1]; omega

/-! ## The tiles cover the rows -/

/-- An index of the first result lies in grid point `t`'s block iff each coordinate is in the block's range. -/
theorem mem_blk5 (t : Fin cfg0.N) (i : S8192x8192.Idx) :
    i ∈ ((cfg0.win 5).blk t).view.set ↔ ∀ a : Fin 2, win0_5.index t a * S128x8192.size a ≤ (i a).val ∧ (i a).val < win0_5.index t a * S128x8192.size a + S128x8192.size a := by
  show i ∈ ((View.whole main_v1_0).slice (win0_5.rect t)).set ↔ _
  rw [View.set_slice_whole, Rect.mem_set_unit]
  exact Iff.rfl

/-- Row `r` of the first result is written by grid point `r / 128`. -/
theorem cover5 (i : S8192x8192.Idx) : ∃ t : Fin cfg0.N, (cfg0.win 5).flush t = true ∧ i ∈ ((cfg0.win 5).blk t).view.set := by
  have hi0 : (i 0).val < 8192 := (i 0).isLt
  have hi1 : (i 1).val < 8192 := (i 1).isLt
  have hN : cfg0.N = 64 := N_0
  obtain ⟨t, ht⟩ : ∃ t : Fin cfg0.N, t.val = (i 0).val / 128 := ⟨⟨(i 0).val / 128, by omega⟩, rfl⟩
  obtain ⟨-, -, -, -, -, -, -, -, -, e0, e1, -⟩ := idx_facts t
  refine ⟨t, flush0_5 t, ?_⟩
  rw [mem_blk5]
  intro a
  match a with
  | ⟨0, _⟩ => show win0_5.index t 0 * 128 ≤ (i 0).val ∧ (i 0).val < win0_5.index t 0 * 128 + 128; rw [e0, ht]; omega
  | ⟨1, _⟩ => show win0_5.index t 1 * 8192 ≤ (i 1).val ∧ (i 1).val < win0_5.index t 1 * 8192 + 8192; rw [e1]; omega

/-- An index of the second result lies in grid point `t`'s block iff each coordinate is in the block's range. -/
theorem mem_blk6 (t : Fin cfg0.N) (i : S8192x128.Idx) :
    i ∈ ((cfg0.win 6).blk t).view.set ↔ ∀ a : Fin 2, win0_6.index t a * S128x128.size a ≤ (i a).val ∧ (i a).val < win0_6.index t a * S128x128.size a + S128x128.size a := by
  show i ∈ ((View.whole main_v1_1).slice (win0_6.rect t)).set ↔ _
  rw [View.set_slice_whole, Rect.mem_set_unit]
  exact Iff.rfl

/-- Row `r` of the second result is written by grid point `r / 128`. -/
theorem cover6 (i : S8192x128.Idx) : ∃ t : Fin cfg0.N, (cfg0.win 6).flush t = true ∧ i ∈ ((cfg0.win 6).blk t).view.set := by
  have hi0 : (i 0).val < 8192 := (i 0).isLt
  have hi1 : (i 1).val < 128 := (i 1).isLt
  have hN : cfg0.N = 64 := N_0
  obtain ⟨t, ht⟩ : ∃ t : Fin cfg0.N, t.val = (i 0).val / 128 := ⟨⟨(i 0).val / 128, by omega⟩, rfl⟩
  obtain ⟨-, -, -, -, -, -, -, -, -, -, -, e0, e1, -⟩ := idx_facts t
  refine ⟨t, flush0_6 t, ?_⟩
  rw [mem_blk6]
  intro a
  match a with
  | ⟨0, _⟩ => show win0_6.index t 0 * 128 ≤ (i 0).val ∧ (i 0).val < win0_6.index t 0 * 128 + 128; rw [e0, ht]; omega
  | ⟨1, _⟩ => show win0_6.index t 1 * 128 ≤ (i 1).val ∧ (i 1).val < win0_6.index t 1 * 128 + 128; rw [e1]; omega

/-- An index of the third result lies in grid point `t`'s block iff each coordinate is in the block's range. -/
theorem mem_blk7 (t : Fin cfg0.N) (i : S8192x128.Idx) :
    i ∈ ((cfg0.win 7).blk t).view.set ↔ ∀ a : Fin 2, win0_7.index t a * S128x128.size a ≤ (i a).val ∧ (i a).val < win0_7.index t a * S128x128.size a + S128x128.size a := by
  show i ∈ ((View.whole main_v1_2).slice (win0_7.rect t)).set ↔ _
  rw [View.set_slice_whole, Rect.mem_set_unit]
  exact Iff.rfl

/-- Row `r` of the third result is written by grid point `r / 128`. -/
theorem cover7 (i : S8192x128.Idx) : ∃ t : Fin cfg0.N, (cfg0.win 7).flush t = true ∧ i ∈ ((cfg0.win 7).blk t).view.set := by
  have hi0 : (i 0).val < 8192 := (i 0).isLt
  have hi1 : (i 1).val < 128 := (i 1).isLt
  have hN : cfg0.N = 64 := N_0
  obtain ⟨t, ht⟩ : ∃ t : Fin cfg0.N, t.val = (i 0).val / 128 := ⟨⟨(i 0).val / 128, by omega⟩, rfl⟩
  obtain ⟨-, -, -, -, -, -, -, -, -, -, -, -, -, e0, e1, -⟩ := idx_facts t
  refine ⟨t, flush0_7 t, ?_⟩
  rw [mem_blk7]
  intro a
  match a with
  | ⟨0, _⟩ => show win0_7.index t 0 * 128 ≤ (i 0).val ∧ (i 0).val < win0_7.index t 0 * 128 + 128; rw [e0, ht]; omega
  | ⟨1, _⟩ => show win0_7.index t 1 * 128 ≤ (i 1).val ∧ (i 1).val < win0_7.index t 1 * 128 + 128; rw [e1]; omega

/-! ## The three result arrays -/

/-- The first result array after the run. -/
theorem arrAt5 (c : Dev nD) : (dats (F := Ideal) m 0 c).arrAt 5 cfg0.N = Cert.Spec.out1 (m ((c : Thread nD τ).loc main_arg0)) (m ((c : Thread nD τ).loc main_arg1)) (m ((c : Thread nD τ).loc main_arg2)) (m ((c : Thread nD τ).loc main_arg3)) :=
  (dats (F := Ideal) m 0 c).arrAt_eq_of_cover 5 (Cert.Spec.out1 (m ((c : Thread nD τ).loc main_arg0)) (m ((c : Thread nD τ).loc main_arg1)) (m ((c : Thread nD τ).loc main_arg2)) (m ((c : Thread nD τ).loc main_arg3))) (fun t _ => flushed5_eq m c t) cover5
/-- The second result array after the run. -/
theorem arrAt6 (c : Dev nD) : (dats (F := Ideal) m 0 c).arrAt 6 cfg0.N = Cert.Spec.out2 (m ((c : Thread nD τ).loc main_arg0)) (m ((c : Thread nD τ).loc main_arg1)) (m ((c : Thread nD τ).loc main_arg2)) (m ((c : Thread nD τ).loc main_arg3)) :=
  (dats (F := Ideal) m 0 c).arrAt_eq_of_cover 6 (Cert.Spec.out2 (m ((c : Thread nD τ).loc main_arg0)) (m ((c : Thread nD τ).loc main_arg1)) (m ((c : Thread nD τ).loc main_arg2)) (m ((c : Thread nD τ).loc main_arg3))) (fun t _ => flushed6_eq m c t) cover6
/-- The third result array after the run. -/
theorem arrAt7 (c : Dev nD) : (dats (F := Ideal) m 0 c).arrAt 7 cfg0.N = Cert.Spec.out3 (m ((c : Thread nD τ).loc main_arg0)) (m ((c : Thread nD τ).loc main_arg1)) (m ((c : Thread nD τ).loc main_arg2)) (m ((c : Thread nD τ).loc main_arg3)) :=
  (dats (F := Ideal) m 0 c).arrAt_eq_of_cover 7 (Cert.Spec.out3 (m ((c : Thread nD τ).loc main_arg0)) (m ((c : Thread nD τ).loc main_arg1)) (m ((c : Thread nD τ).loc main_arg2)) (m ((c : Thread nD τ).loc main_arg3))) (fun t _ => flushed7_eq m c t) cover7

end Cert.KernelIdeal.Hand

end
-- ==== Proof.KI.Frame.lean ====
import proofs.«172043_j60765197304309_1_alg».proof.Proof.KI.Launch
import proofs.«172043_j60765197304309_1_alg».proof.Proof.KI.Value

/-!
# The frame and the results read off the run

The run's post has every window's array at what the write-backs leave and the two buffers no window stages at what the
host operation after the region leaves. The input array, the state and the bias are read through input windows, which
are never written back; the weights bypass the region; the one host operation before the region writes only the
transposed taps. So the four argument arrays end as launched. At the exact instance the three result arrays are the
specification's column ranges (the tiles partition the rows), and the carried-out state is the last four input rows.
-/

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- The host operation before the region does not write argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The host operation before the region does not write argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The host operation before the region does not write argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))
/-- The host operation before the region does not write argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, Finset.mem_singleton]
    exact StableHlo.devRef_ne_of_ne (by decide)))

/-- A buffer that is unscoped and no window's array bypasses the region. -/
theorem mem_rest (b : Ref sig .tc) (hs : b.isScoped = false) (ha : ∀ w, (spec0 w).arr.view.ref ≠ b) :
    b ∈ Pipeline.restRefsP sig Pipeline.Prefetch.none spec0 :=
  Finset.mem_sdiff.mpr ⟨Pipeline.mem_restRefs_of b hs ha, fun h => by
    obtain ⟨k, -, -⟩ := Finset.mem_image.mp h; exact k.elim0⟩

/-- The frame: every weakly fair execution terminates, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).2 main_arg2 (mem_rest main_arg2 (by decide) (by decide))).trans ((W1_arg2 m c).trans (V_main_arg2 m c)),
     ((h c).1 4).trans (((dats m 0 c).arrAt_in 4 rfl _).trans ((A_eq m c 4).trans (V_main_arg3 m c)))⟩) (run_main m ρ)

/-- The carried-out state after the run: the host operation after the region slices the last four rows of the input
    array as the region found it, which is the array as launched. -/
theorem W1_v2 (m : (ℓ : Loc nD τ sig) → Buf (Elt Ideal) ℓ) (c : Dev nD) :
    W1 m c (Proc.devRef .tc main_v2) = Cert.Spec.stateOut (m ((c : Thread nD τ).loc main_arg0)) := by
  have e : W1 m c (Proc.devRef .tc main_v2)
      = extractStridedSlice S4x8448 ![8188, 0] (V m c main_arg0) Facts₀.slices_S8192x8448_S4x8448_8188_0 := by
    show StableHlo.after (List.flatten [hostOps1]) (V0 m c) (Proc.devRef .tc main_v2) = _
    simp only [hostOps1, List.flatten_cons, List.flatten_nil, List.append_nil]
    after_results <;> rfl
  rw [e, V_main_arg0]
  funext j
  show _ = m ((c : Thread nD τ).loc main_arg0) (ix2 (⟨8188 + (j 0).val, by have := idx2_lt0 j; omega⟩ : Fin 8192) ⟨(j 1).val, idx2_lt1 j⟩)
  exact extractStridedSlice_apply ![8188, 0] (m ((c : Thread nD τ).loc main_arg0)) Facts₀.slices_S8192x8448_S4x8448_8188_0 j
    (ix2 (⟨8188 + (j 0).val, by have := idx2_lt0 j; omega⟩ : Fin 8192) ⟨(j 1).val, idx2_lt1 j⟩) (fun a => match a with
    | ⟨0, _⟩ => by show 8188 + (j 0).val = 8188 + (j 0).val; rfl
    | ⟨1, _⟩ => by show (j 1).val = 0 + (j 1).val; omega)

/-- The results at the exact instance: the three result arrays are the specification's three column ranges of the
    convolution, the fourth the last four input rows, and the arguments end as launched. -/
theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1_0) = Cert.Spec.out1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1_1) = Cert.Spec.out2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v1_2) = Cert.Spec.out3 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v2) = Cert.Spec.stateOut (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 5).trans (arrAt5 m c), ((h c).1 6).trans (arrAt6 m c), ((h c).1 7).trans (arrAt7 m c),
     ((h c).2 main_v2 (mem_rest main_v2 (by decide) (by decide))).trans (W1_v2 m c),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c))),
     ((h c).2 main_arg2 (mem_rest main_arg2 (by decide) (by decide))).trans ((W1_arg2 m c).trans (V_main_arg2 m c)),
     ((h c).1 4).trans (((dats m 0 c).arrAt_in 4 rfl _).trans ((A_eq m c 4).trans (V_main_arg3 m c)))⟩) (run_main m ρ)

end Cert.KernelIdeal.Hand

end
-- ==== Proof.RefValue.lean ====
import proofs.«172043_j60765197304309_1_alg».proof.Proof.Gen.ReferenceIdeal.Run
import proofs.«172043_j60765197304309_1_alg».proof.Proof.Gen.ReferenceIdeal.Read
import proofs.«172043_j60765197304309_1_alg».proof.Proof.Spec
import Idealize.ShloMosaic.Lib.ValueIdx
import Idealize.ShloMosaic.Lib.Pipeline.Value

/-!
# The reference computes the specification

The reference stacks the state over the input, takes the four row-shifted slices, scales each by its tap's column of the
weights (sliced, reshaped and broadcast over the rows) and adds them to the broadcast bias in order; its three results are
column slices of that sum and its fourth the last four rows of the stacked array. Read at an index, each is the
specification's function.
-/

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Read

/-! ## The stacked array at an index -/

/-- The stacked array at a row below 4 is the state's row. -/
theorem stacked_state (x : (⟨S8192x8448, .f32⟩ : BufTy).Contents (Elt Ideal)) (st : (⟨S4x8448, .f32⟩ : BufTy).Contents (Elt Ideal))
    (i : S8196x8448.Idx) (r : Fin 4) (c : Fin 8448) (h0 : r.val = (i 0).val) (h1 : c.val = (i 1).val) :
    val_main_v0 (F := Ideal) x st i = st (ix2 r c) := by
  unfold val_main_v0
  exact concatenate_pair_apply_left 0 st x concatenates_S4x8448_S8192x8448_S8196x8448_d0 i rfl (ix2 r c)
    (fun b => match b with
      | ⟨0, _⟩ => h0
      | ⟨1, _⟩ => h1)

/-- The stacked array at row `r + 4` is the input's row `r`. -/
theorem stacked_input (x : (⟨S8192x8448, .f32⟩ : BufTy).Contents (Elt Ideal)) (st : (⟨S4x8448, .f32⟩ : BufTy).Contents (Elt Ideal))
    (i : S8196x8448.Idx) (r : Fin 8192) (c : Fin 8448) (h0 : r.val + 4 = (i 0).val) (h1 : c.val = (i 1).val) :
    val_main_v0 (F := Ideal) x st i = x (ix2 r c) := by
  unfold val_main_v0
  exact concatenate_pair_apply_right 0 st x concatenates_S4x8448_S8192x8448_S8196x8448_d0 i rfl rfl (ix2 r c)
    (fun b hb => match b, hb with
      | ⟨0, _⟩, hb => absurd rfl hb
      | ⟨1, _⟩, _ => h1)
    h0

/-- The stacked array at row `k`, channel `c`, is the specification's stacked row. -/
theorem stacked_at (x : (⟨S8192x8448, .f32⟩ : BufTy).Contents (Elt Ideal)) (st : (⟨S4x8448, .f32⟩ : BufTy).Contents (Elt Ideal))
    (i : S8196x8448.Idx) (k : ℕ) (hk : k < 8196) (c : Fin 8448) (h0 : k = (i 0).val) (h1 : c.val = (i 1).val) :
    val_main_v0 (F := Ideal) x st i = Cert.Spec.padded x st k hk c := by
  unfold Cert.Spec.padded
  split
  · next h => exact stacked_state x st i ⟨k, h⟩ c h0 h1
  · next h => exact stacked_input x st i ⟨k - 4, by omega⟩ c (by show k - 4 + 4 = (i 0).val; omega) h1

/-! ## The taps' columns and the bias, broadcast over the rows -/

/-- Tap 0's column of the weights, broadcast over the rows, at an index. -/
theorem tap0_apply (w : (⟨S8448x4, .f32⟩ : BufTy).Contents (Elt Ideal)) (i : S8192x8448.Idx) :
    val_main_v5 (F := Ideal) w i = w (ix2 (⟨(i 1).val, idx2_lt1 i⟩ : Fin 8448) (0 : Fin 4)) := by
  rw [val_main_v5_apply, val_main_v4_apply, val_main_v3_apply, val_main_v2_apply]
  refine congrArg w (funext fun a => ?_)
  match a with
  | ⟨0, _⟩ => exact Fin.ext (by show (i 1).val / 1 = (i 1).val; omega)
  | ⟨1, _⟩ => exact Fin.ext rfl

/-- Tap 1's column of the weights, broadcast over the rows, at an index. -/
theorem tap1_apply (w : (⟨S8448x4, .f32⟩ : BufTy).Contents (Elt Ideal)) (i : S8192x8448.Idx) :
    val_main_v14 (F := Ideal) w i = w (ix2 (⟨(i 1).val, idx2_lt1 i⟩ : Fin 8448) (1 : Fin 4)) := by
  rw [val_main_v14_apply, val_main_v13_apply, val_main_v12_apply, val_main_v11_apply]
  refine congrArg w (funext fun a => ?_)
  match a with
  | ⟨0, _⟩ => exact Fin.ext (by show (i 1).val / 1 = (i 1).val; omega)
  | ⟨1, _⟩ => exact Fin.ext rfl

/-- Tap 2's column of the weights, broadcast over the rows, at an index. -/
theorem tap2_apply (w : (⟨S8448x4, .f32⟩ : BufTy).Contents (Elt Ideal)) (i : S8192x8448.Idx) :
    val_main_v21 (F := Ideal) w i = w (ix2 (⟨(i 1).val, idx2_lt1 i⟩ : Fin 8448) (2 : Fin 4)) := by
  rw [val_main_v21_apply, val_main_v20_apply, val_main_v19_apply, val_main_v18_apply]
  refine congrArg w (funext fun a => ?_)
  match a with
  | ⟨0, _⟩ => exact Fin.ext (by show (i 1).val / 1 = (i 1).val; omega)
  | ⟨1, _⟩ => exact Fin.ext rfl

/-- Tap 3's column of the weights, broadcast over the rows, at an index. -/
theorem tap3_apply (w : (⟨S8448x4, .f32⟩ : BufTy).Contents (Elt Ideal)) (i : S8192x8448.Idx) :
    val_main_v28 (F := Ideal) w i = w (ix2 (⟨(i 1).val, idx2_lt1 i⟩ : Fin 8448) (3 : Fin 4)) := by
  rw [val_main_v28_apply, val_main_v27_apply, val_main_v26_apply, val_main_v25_apply]
  refine congrArg w (funext fun a => ?_)
  match a with
  | ⟨0, _⟩ => exact Fin.ext (by show (i 1).val / 1 = (i 1).val; omega)
  | ⟨1, _⟩ => exact Fin.ext rfl

/-- The bias, broadcast over the rows, at an index. -/
theorem bias_apply (b : (⟨S8448, .f32⟩ : BufTy).Contents (Elt Ideal)) (i : S8192x8448.Idx) :
    val_main_v8 (F := Ideal) b i = b (ix1 (⟨(i 1).val, idx2_lt1 i⟩ : Fin 8448)) := by
  rw [val_main_v8_apply, val_main_v7_apply]
  refine congrArg b (funext fun a => ?_)
  match a with
  | ⟨0, _⟩ => rfl

/-! ## The four row-shifted slices of the stacked array -/

/-- The slice at row offset 0 reads the stacked row `r`. -/
theorem shift0_apply (x : (⟨S8192x8448, .f32⟩ : BufTy).Contents (Elt Ideal)) (st : (⟨S4x8448, .f32⟩ : BufTy).Contents (Elt Ideal))
    (i : S8192x8448.Idx) :
    val_main_v1 (F := Ideal) x st i
      = Cert.Spec.padded x st (i 0).val (by have := idx2_lt0 i; omega) ⟨(i 1).val, idx2_lt1 i⟩ := by
  rw [val_main_v1_apply]
  exact stacked_at x st _ _ _ _ rfl rfl

/-- The slice at row offset 1 reads the stacked row `r + 1`. -/
theorem shift1_apply (x : (⟨S8192x8448, .f32⟩ : BufTy).Contents (Elt Ideal)) (st : (⟨S4x8448, .f32⟩ : BufTy).Contents (Elt Ideal))
    (i : S8192x8448.Idx) :
    val_main_v10 (F := Ideal) x st i
      = Cert.Spec.padded x st ((i 0).val + 1) (by have := idx2_lt0 i; omega) ⟨(i 1).val, idx2_lt1 i⟩ := by
  rw [val_main_v10_apply]
  exact stacked_at x st _ _ _ _ (by show (i 0).val + 1 = 1 + (i 0).val; omega) rfl

/-- The slice at row offset 2 reads the stacked row `r + 2`. -/
theorem shift2_apply (x : (⟨S8192x8448, .f32⟩ : BufTy).Contents (Elt Ideal)) (st : (⟨S4x8448, .f32⟩ : BufTy).Contents (Elt Ideal))
    (i : S8192x8448.Idx) :
    val_main_v17 (F := Ideal) x st i
      = Cert.Spec.padded x st ((i 0).val + 2) (by have := idx2_lt0 i; omega) ⟨(i 1).val, idx2_lt1 i⟩ := by
  rw [val_main_v17_apply]
  exact stacked_at x st _ _ _ _ (by show (i 0).val + 2 = 2 + (i 0).val; omega) rfl

/-- The slice at row offset 3 reads the stacked row `r + 3`. -/
theorem shift3_apply (x : (⟨S8192x8448, .f32⟩ : BufTy).Contents (Elt Ideal)) (st : (⟨S4x8448, .f32⟩ : BufTy).Contents (Elt Ideal))
    (i : S8192x8448.Idx) :
    val_main_v24 (F := Ideal) x st i
      = Cert.Spec.padded x st ((i 0).val + 3) (by have := idx2_lt0 i; omega) ⟨(i 1).val, idx2_lt1 i⟩ := by
  rw [val_main_v24_apply]
  exact stacked_at x st _ _ _ _ (by show (i 0).val + 3 = 3 + (i 0).val; omega) rfl

/-! ## The sum at an index, and the four results -/

/-- The bias plus the four scaled slices, added in order, is the convolution at row `r`, channel `c`. -/
theorem sum_apply (x : (⟨S8192x8448, .f32⟩ : BufTy).Contents (Elt Ideal)) (st : (⟨S4x8448, .f32⟩ : BufTy).Contents (Elt Ideal))
    (w : (⟨S8448x4, .f32⟩ : BufTy).Contents (Elt Ideal)) (b : (⟨S8448, .f32⟩ : BufTy).Contents (Elt Ideal)) (i : S8192x8448.Idx) :
    val_main_v30 (F := Ideal) x st w b i
      = Cert.Spec.conv x st w b ⟨(i 0).val, idx2_lt0 i⟩ ⟨(i 1).val, idx2_lt1 i⟩ := by
  rw [val_main_v30_apply, val_main_v23_apply, val_main_v16_apply, val_main_v9_apply,
    val_main_v29_apply, val_main_v22_apply, val_main_v15_apply, val_main_v6_apply,
    shift0_apply, shift1_apply, shift2_apply, shift3_apply,
    tap0_apply, tap1_apply, tap2_apply, tap3_apply, bias_apply]
  rfl

/-- The first result: channels 0 … 8191 of the convolution. -/
theorem out1_eq (x : (⟨S8192x8448, .f32⟩ : BufTy).Contents (Elt Ideal)) (st : (⟨S4x8448, .f32⟩ : BufTy).Contents (Elt Ideal))
    (w : (⟨S8448x4, .f32⟩ : BufTy).Contents (Elt Ideal)) (b : (⟨S8448, .f32⟩ : BufTy).Contents (Elt Ideal)) :
    val_main_v32 (F := Ideal) x st w b = Cert.Spec.out1 x st w b := by
  funext j
  rw [val_main_v32_apply, sum_apply]
  rfl

/-- The second result: channels 8192 … 8319 of the convolution. -/
theorem out2_eq (x : (⟨S8192x8448, .f32⟩ : BufTy).Contents (Elt Ideal)) (st : (⟨S4x8448, .f32⟩ : BufTy).Contents (Elt Ideal))
    (w : (⟨S8448x4, .f32⟩ : BufTy).Contents (Elt Ideal)) (b : (⟨S8448, .f32⟩ : BufTy).Contents (Elt Ideal)) :
    val_main_v33 (F := Ideal) x st w b = Cert.Spec.out2 x st w b := by
  funext j
  rw [val_main_v33_apply, sum_apply]
  rfl

/-- The third result: channels 8320 … 8447 of the convolution. -/
theorem out3_eq (x : (⟨S8192x8448, .f32⟩ : BufTy).Contents (Elt Ideal)) (st : (⟨S4x8448, .f32⟩ : BufTy).Contents (Elt Ideal))
    (w : (⟨S8448x4, .f32⟩ : BufTy).Contents (Elt Ideal)) (b : (⟨S8448, .f32⟩ : BufTy).Contents (Elt Ideal)) :
    val_main_v34 (F := Ideal) x st w b = Cert.Spec.out3 x st w b := by
  funext j
  rw [val_main_v34_apply, sum_apply]
  rfl

/-- The fourth result: the last four rows of the stacked array are the last four input rows. -/
theorem stateOut_eq (x : (⟨S8192x8448, .f32⟩ : BufTy).Contents (Elt Ideal)) (st : (⟨S4x8448, .f32⟩ : BufTy).Contents (Elt Ideal)) :
    val_main_v31 (F := Ideal) x st = Cert.Spec.stateOut x := by
  funext j
  rw [val_main_v31_apply]
  unfold Cert.Spec.stateOut
  exact stacked_input x st _ _ _ (by show 8188 + (j 0).val + 4 = 8192 + (j 0).val; omega) rfl

/-- Every weakly fair execution of the reference ends with its four results at the specification's functions of the
    arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v32) = Cert.Spec.out1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v33) = Cert.Spec.out2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v34) = Cert.Spec.out3 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v31) = Cert.Spec.stateOut (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run (defs (F := Ideal)) _ _).mono (fun r h c => ?_) (Cert.ReferenceIdeal.Value.run (F := Ideal) m ρ)
  obtain ⟨h32, h33, h34, h31, ha0, ha1, ha2, ha3⟩ := h c
  refine ⟨?_, ?_, ?_, ?_, ha0, ha1, ha2, ha3⟩
  · rw [h32, val_main_v32_eq, out1_eq]
  · rw [h33, val_main_v33_eq, out2_eq]
  · rw [h34, val_main_v34_eq, out3_eq]
  · rw [h31, val_main_v31_eq, stateOut_eq]

end Cert.ReferenceIdeal.RefValue

end
-- ==== Proof.lean ====
import proofs.«172043_j60765197304309_1_alg».proof.Defs
import proofs.«172043_j60765197304309_1_alg».proof.Proof.Gen.Kernel
import proofs.«172043_j60765197304309_1_alg».proof.Proof.Gen.KernelIdeal
import proofs.«172043_j60765197304309_1_alg».proof.Proof.Gen.ReferenceIdeal
import proofs.«172043_j60765197304309_1_alg».proof.Proof.Gen.Pre_finite_inputs
import proofs.«172043_j60765197304309_1_alg».proof.Proof.K.Frame
import proofs.«172043_j60765197304309_1_alg».proof.Proof.KI.Frame
import proofs.«172043_j60765197304309_1_alg».proof.Proof.RefValue
import Idealize.ShloMosaic.Adequacy
import Idealize.ShloMosaic.Init

/-!
# A causal depthwise convolution with carried state, tiled over rows, against its plain reference

The kernel computes, for an input of 8192 rows and 8448 channels, a carried state of 4 rows, four taps per channel and a
per-channel bias, the array `out[r, c] = bias[c] + Σ_j padded[r + j, c] · w[c, j]` (the four terms added in order
j = 0, 1, 2, 3), where `padded` is the state stacked over the input; it does so in 64 tiles of 128 rows, each tile reading
its own rows and, through a second window on the same input array, the eight rows before it, of which it keeps the last
four as the carry (the state at the first tile). The reference computes the same sum on the whole stacked array with row
slices. Both add the same terms in the same order, so on the extended reals the two results agree term by term and no
finiteness of the inputs is used. The three results are column ranges of `out`; the fourth is the last four input rows.

* the word-level and the idealized kernel run to the end, fault nowhere and leave their arguments unchanged: the body's
  triple at one grid point, then the launch, in which the input array's points-to is halved between the two windows
  that read it and joined again for the host operation after the region;
* the reference's run, read one operation at a time, is the specification's function;
* the idealized kernel's tiles partition the rows and each tile's element is the specification's at its global row.
-/

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2.2) (Cert.ReferenceIdeal.RefValue.run_spec m ρ)

/-- The idealization rewrote nothing. -/
theorem preserves : Cert.preserves_Kernel_KernelIdeal := trivial

/-- Both idealized programs end with the specification's four arrays of the arguments they agree on. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.out1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.Spec.out2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.out3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), fun c => Cert.Spec.stateOut (m ((c.tc : Thread Cert.KernelIdeal.nD Cert.KernelIdeal.τ).loc Cert.KernelIdeal.main_arg0)),
    Cert.KernelIdeal.Hand.value m ρ, ?_⟩
  refine (θ_run Cert.ReferenceIdeal.defs _ _).mono (fun _ h c => ?_) (Cert.ReferenceIdeal.RefValue.run_spec m' ρ')
  exact ⟨(h c).1.trans (by rw [(hagree c).1, (hagree c).2.1, (hagree c).2.2.1, (hagree c).2.2.2]),
    (h c).2.1.trans (by rw [(hagree c).1, (hagree c).2.1, (hagree c).2.2.1, (hagree c).2.2.2]),
    (h c).2.2.1.trans (by rw [(hagree c).1, (hagree c).2.1, (hagree c).2.2.1, (hagree c).2.2.2]),
    (h c).2.2.2.1.trans (by rw [(hagree c).1]),
    (h c).2.2.2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
